-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S512x512 : Shape := ⟨2, ![512, 512]⟩
abbrev S8x512x512 : Shape := ⟨3, ![8, 512, 512]⟩
abbrev S512 : Shape := ⟨1, ![512]⟩
abbrev S2x320000 : Shape := ⟨2, ![2, 320000]⟩
abbrev S320000 : Shape := ⟨1, ![320000]⟩
abbrev S_ : Shape := ⟨0, ![]⟩
abbrev S1x320000 : Shape := ⟨2, ![1, 320000]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S8x512x512 : S_.BroadcastsInDim S8x512x512 (![] : Fin 0 → Fin S8x512x512.rank)
  reducesTo_S8x512x512_S_d0_1_2 : S8x512x512.ReducesTo [0, 1, 2] S_
  bcast_S_S512 : S_.BroadcastsInDim S512 (![] : Fin 0 → Fin S512.rank)
  reducesTo_S512_S_d0 : S512.ReducesTo [0] S_
  slices_S2x320000_S1x320000_1_0 : S2x320000.Slices ![1, 0] S1x320000
  shapeCasts_S1x320000_S320000 : S1x320000.ShapeCasts S320000
  bcast_S_S320000 : S_.BroadcastsInDim S320000 (![] : Fin 0 → Fin S320000.rank)
  reducesTo_S320000_S_d0 : S320000.ReducesTo [0] S_

variable [Facts]

def fn_part2 {F : FTy → Type} [FloatOps F] (main_arg5 : IVec S320000 32) (main_v30 : IVec S_ 1) (main_v33 : IVec S_ 1) : IVec S_ 1 :=
  let main_v34 : IVec S_ 1 := andi main_v30 main_v33
  let main_c_12 : IVec S_ 32 := constantI S_ 32 8#32
  let main_v35 : IVec S320000 32 := broadcastInDim S320000 ![] bcast_S_S320000 main_c_12
  let main_v36 : IVec S320000 1 := cmpi .slt main_arg5 main_v35
  let main_c_13 : IVec S_ 1 := constantI S_ 1 1#1
  let main_v37 : IVec S_ 1 := (fun x v => Host.reduce IntOp.andi x v reducesTo_S320000_S_d0 h_S_) main_v36 main_c_13
  let main_v38 : IVec S_ 1 := andi main_v34 main_v37
  main_v38

def fn_part1 {F : FTy → Type} [FloatOps F] (main_arg4 : IVec S2x320000 32) (main_arg5 : IVec S320000 32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : IVec S1x320000 32 := (extractStridedSlice S1x320000 ![1, 0] · slices_S2x320000_S1x320000_1_0) main_arg4
  let main_v20 : IVec S320000 32 := shapeCast S320000 main_v19 shapeCasts_S1x320000_S320000
  let main_c_6 : IVec S_ 32 := constantI S_ 32 0#32
  let main_v21 : IVec S320000 32 := broadcastInDim S320000 ![] bcast_S_S320000 main_c_6
  let main_v22 : IVec S320000 1 := cmpi .sge main_v20 main_v21
  let main_c_7 : IVec S_ 1 := constantI S_ 1 1#1
  let main_v23 : IVec S_ 1 := (fun x v => Host.reduce IntOp.andi x v reducesTo_S320000_S_d0 h_S_) main_v22 main_c_7
  let main_v24 : IVec S_ 1 := andi main_v18 main_v23
  let main_v25 : IVec S1x320000 32 := (extractStridedSlice S1x320000 ![1, 0] · slices_S2x320000_S1x320000_1_0) main_arg4
  let main_v26 : IVec S320000 32 := shapeCast S320000 main_v25 shapeCasts_S1x320000_S320000
  let main_c_8 : IVec S_ 32 := constantI S_ 32 20000#32
  let main_v27 : IVec S320000 32 := broadcastInDim S320000 ![] bcast_S_S320000 main_c_8
  let main_v28 : IVec S320000 1 := cmpi .slt main_v26 main_v27
  let main_c_9 : IVec S_ 1 := constantI S_ 1 1#1
  let main_v29 : IVec S_ 1 := (fun x v => Host.reduce IntOp.andi x v reducesTo_S320000_S_d0 h_S_) main_v28 main_c_9
  let main_v30 : IVec S_ 1 := andi main_v24 main_v29
  let main_c_10 : IVec S_ 32 := constantI S_ 32 0#32
  let main_v31 : IVec S320000 32 := broadcastInDim S320000 ![] bcast_S_S320000 main_c_10
  let main_v32 : IVec S320000 1 := cmpi .sge main_arg5 main_v31
  let main_c_11 : IVec S_ 1 := constantI S_ 1 1#1
  let main_v33 : IVec S_ 1 := (fun x v => Host.reduce IntOp.andi x v reducesTo_S320000_S_d0 h_S_) main_v32 main_c_11
  fn_part2 (F := F) main_arg5 main_v30 main_v33

def fn {F : FTy → Type} [FloatOps F] (main_arg0 : FVec F S20000x512 .f32) (main_arg1 : FVec F S512x512 .f32) (main_arg2 : FVec F S8x512x512 .f32) (main_arg3 : FVec F S512 .f32) (main_arg4 : IVec S2x320000 32) (main_arg5 : IVec S320000 32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S8x512x512 .f32 := Host.absf main_arg2
  let main_cst_2 : FVec F S_ .f32 := constant S_ .f32 0x7F800000#32
  let main_v10 : FVec F S8x512x512 .f32 := broadcastInDim S8x512x512 ![] bcast_S_S8x512x512 main_cst_2
  let main_v11 : IVec S8x512x512 1 := cmpf .olt main_v9 main_v10
  let main_c_3 : IVec S_ 1 := constantI S_ 1 1#1
  let main_v12 : IVec S_ 1 := (fun x v => Host.reduce IntOp.andi x v reducesTo_S8x512x512_S_d0_1_2 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S20000x512 : Shape := ⟨2, ![20000, 512]⟩
abbrev S512x512 : Shape := ⟨2, ![512, 512]⟩
abbrev S8x512x512 : Shape := ⟨3, ![8, 512, 512]⟩
abbrev S512 : Shape := ⟨1, ![512]⟩
abbrev S2x320000 : Shape := ⟨2, ![2, 320000]⟩
abbrev S320000 : Shape := ⟨1, ![320000]⟩
abbrev S1x320000 : Shape := ⟨2, ![1, 320000]⟩
abbrev S_ : Shape := ⟨0, ![]⟩
abbrev S320000x1 : Shape := ⟨2, ![320000, 1]⟩
abbrev S320000x512 : Shape := ⟨2, ![320000, 512]⟩
abbrev S160000x512 : Shape := ⟨2, ![160000, 512]⟩
abbrev S160000 : Shape := ⟨1, ![160000]⟩
abbrev S8x20000x512 : Shape := ⟨3, ![8, 20000, 512]⟩
abbrev S8x20000x1 : Shape := ⟨3, ![8, 20000, 1]⟩
abbrev S1x512 : Shape := ⟨2, ![1, 512]⟩
abbrev S2000x512 : Shape := ⟨2, ![2000, 512]⟩
abbrev S1x2000x512 : Shape := ⟨3, ![1, 2000, 512]⟩
abbrev S1x512x512 : Shape := ⟨3, ![1, 512, 512]⟩

abbrev nBuf : Space → Nat
  | .hbm => 46
  | .vmem => 11
  | .smem => 0
  | _ => 0

abbrev bufTy : (tb : Table) → Fin (tcTables nBuf tb) → BufTy
  | .hbm, ⟨0, _⟩ => ⟨S20000x512, .f32⟩
  | .hbm, ⟨1, _⟩ => ⟨S512x512, .f32⟩
  | .hbm, ⟨2, _⟩ => ⟨S8x512x512, .f32⟩
  | .hbm, ⟨3, _⟩ => ⟨S512, .f32⟩
  | .hbm, ⟨4, _⟩ => ⟨S2x320000, .i32⟩
  | .hbm, ⟨5, _⟩ => ⟨S320000, .i32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S_, .i32⟩
  | .hbm, ⟨11, _⟩ => ⟨S320000, .i32⟩
  | .hbm, ⟨12, _⟩ => ⟨S320000, .i32⟩
  | .hbm, ⟨13, _⟩ => ⟨S320000, .i32⟩
  | .hbm, ⟨14, _⟩ => ⟨S_, .i32⟩
  | .hbm, ⟨15, _⟩ => ⟨S320000, .i32⟩
  | .hbm, ⟨16, _⟩ => ⟨S320000, .i1⟩
  | .hbm, ⟨17, _⟩ => ⟨S_, .i32⟩
  | .hbm, ⟨18, _⟩ => ⟨S320000, .i32⟩
  | .hbm, ⟨19, _⟩ => ⟨S320000, .i32⟩
  | .hbm, ⟨20, _⟩ => ⟨S320000, .i32⟩
  | .hbm, ⟨21, _⟩ => ⟨S320000x1, .i32⟩
  | .hbm, ⟨22, _⟩ => ⟨S320000x512, .f32⟩
  | .hbm, ⟨23, _⟩ => ⟨S_, .f32⟩
  | .hbm, ⟨24, _⟩ => ⟨S160000x512, .f32⟩
  | .hbm, ⟨25, _⟩ => ⟨S320000x1, .i32⟩
  | .hbm, ⟨26, _⟩ => ⟨S160000x512, .f32⟩
  | .hbm, ⟨27, _⟩ => ⟨S_, .f32⟩
  | .hbm, ⟨28, _⟩ => ⟨S320000, .f32⟩
  | .hbm, ⟨29, _⟩ => ⟨S_, .f32⟩
  | .hbm, ⟨30, _⟩ => ⟨S160000, .f32⟩
  | .hbm, ⟨31, _⟩ => ⟨S320000x1, .i32⟩
  | .hbm, ⟨32, _⟩ => ⟨S160000, .f32⟩
  | .hbm, ⟨33, _⟩ => ⟨S8x20000x512, .f32⟩
  | .hbm, ⟨34, _⟩ => ⟨S_, .f32⟩
  | .hbm, ⟨35, _⟩ => ⟨S160000, .f32⟩
  | .hbm, ⟨36, _⟩ => ⟨S160000, .f32⟩
  | .hbm, ⟨37, _⟩ => ⟨S8x20000x1, .f32⟩
  | .hbm, ⟨38, _⟩ => ⟨S8x20000x512, .f32⟩
  | .hbm, ⟨39, _⟩ => ⟨S8x20000x512, .f32⟩
  | .hbm, ⟨40, _⟩ => ⟨S8x20000x512, .bf16⟩
  | .hbm, ⟨41, _⟩ => ⟨S20000x512, .bf16⟩
  | .hbm, ⟨42, _⟩ => ⟨S512x512, .bf16⟩
  | .hbm, ⟨43, _⟩ => ⟨S8x512x512, .bf16⟩
  | .hbm, ⟨44, _⟩ => ⟨S1x512, .f32⟩
  | .hbm, ⟨45, _⟩ => ⟨S20000x512, .f32⟩
  | .local _ .vmem, ⟨0, _⟩ => ⟨S2000x512, .bf16⟩
  | .local _ .vmem, ⟨1, _⟩ => ⟨S2000x512, .bf16⟩
  | .local _ .vmem, ⟨2, _⟩ => ⟨S512x512, .bf16⟩
  | .local _ .vmem, ⟨3, _⟩ => ⟨S1x2000x512, .bf16⟩
  | .local _ .vmem, ⟨4, _⟩ => ⟨S1x2000x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512, .f32⟩
  | .local _ .vmem, ⟨8, _⟩ => ⟨S2000x512, .f32⟩
  | .local _ .vmem, ⟨9, _⟩ => ⟨S2000x512, .f32⟩
  | .local _ .vmem, ⟨10, _⟩ => ⟨S2000x512, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![10, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S160000x512 : S_.BroadcastsInDim S160000x512 (![] : Fin 0 → Fin S160000x512.rank)
  bcast_S_S160000 : S_.BroadcastsInDim S160000 (![] : Fin 0 → Fin S160000.rank)
  shapeCasts_S160000x512_S8x20000x512 : S160000x512.ShapeCasts S8x20000x512
  shapeCasts_S160000_S8x20000x1 : S160000.ShapeCasts S8x20000x1
  bcast_S8x20000x1_S8x20000x512_0_1_2 : S8x20000x1.BroadcastsInDim S8x20000x512 (![0, 1, 2] : Fin 3 → Fin S8x20000x512.rank)
  bitsLt_bf16_f32 : FTy.bits .bf16 < FTy.bits .f32
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x2000x512_S1x2000x512_0_0_0 : ∀ a, (![0, 0, 0] : Fin 3 → Nat) a + S1x2000x512.size a ≤ S1x2000x512.size a
  h_S1x2000x512 : 0 < S1x2000x512.numel
  shapeCasts_S1x2000x512_S2000x512 : S1x2000x512.ShapeCasts S2000x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  gather_S20000x512_S320000x1_S320000x512_1_0_n_n_0_1_1512_wf : GatherDims.WF S20000x512 S320000x1 S320000x512 [1] [0] [] [0] [] 1 ![1, 512]
  scatter_S160000x512_S320000x1_S320000x512_1_0_0_1_wf : ScatterDims.WF S160000x512 S320000x1 S320000x512 [1] [0] [0] 1
  scatter_S160000_S320000x1_S320000_n_0_0_1_wf : ScatterDims.WF S160000 S320000x1 S320000 [] [0] [0] 1
  dot_S2000x512_S512x512_S2000x512_1_1_0_0_n_n_wf : DotDims.WF S2000x512 S512x512 S2000x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S20000x512.size a
  hwx0_0 : ∀ i : grid0.Coords, EltTy.bits .bf16 = 32 ∨ (Rect.block (s := S20000x512) S2000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2000x512.size a ≤ S8x20000x512.size a
  hwx0_2 : ∀ i : grid0.Coords, EltTy.bits .bf16 = 32 ∨ (Rect.block (s := S8x20000x512) S1x2000x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S8x512x512.size a
  hwx0_3 : ∀ i : grid0.Coords, EltTy.bits .bf16 = 32 ∨ (Rect.block (s := S8x512x512) S1x512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x512.size a ≤ S20000x512.size a
  hwx0_5 : ∀ i : grid0.Coords, EltTy.bits .f32 = 32 ∨ (Rect.block (s := S20000x512) S2000x512.size (cc0_transform_5 i) (hinb0_5 i)).WholeWords (EltTy.packing .f32)

variable [Facts₀]

def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S160000x512_S320000x1_S320000x512_1_0_0_1 : ScatterDims S160000x512 S320000x1 S320000x512 where
  updateWindowDims := [1]
  insertedWindowDims := [0]
  scatterDimsToOperandDims := [0]
  indexVectorDim := 1
  wf := scatter_S160000x512_S320000x1_S320000x512_1_0_0_1_wf
def scatter_S160000_S320000x1_S320000_n_0_0_1 : ScatterDims S160000 S320000x1 S320000 where
  updateWindowDims := []
  insertedWindowDims := [0]
  scatterDimsToOperandDims := [0]
  indexVectorDim := 1
  wf := scatter_S160000_S320000x1_S320000_n_0_0_1_wf
def dot_S2000x512_S512x512_S2000x512_1_1_0_0_n_n : DotDims S2000x512 S512x512 S2000x512 where
  lhsContracting := [1]
  rhsContracting := [1]
  lhsNonContracting := [0]
  rhsNonContracting := [0]
  lhsBatch := []
  rhsBatch := []
  wf := dot_S2000x512_S512x512_S2000x512_1_1_0_0_n_n_wf

abbrev win0_0 : Pipeline.Window sig grid0 :=
  Pipeline.Window.ofSpec (Memref.whole main_v28) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x2000x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S2000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S20000x512 : Shape := ⟨2, ![20000, 512]⟩
abbrev S512x512 : Shape := ⟨2, ![512, 512]⟩
abbrev S8x512x512 : Shape := ⟨3, ![8, 512, 512]⟩
abbrev S512 : Shape := ⟨1, ![512]⟩
abbrev S2x320000 : Shape := ⟨2, ![2, 320000]⟩
abbrev S320000 : Shape := ⟨1, ![320000]⟩
abbrev S1x320000 : Shape := ⟨2, ![1, 320000]⟩
abbrev S8x512x20000 : Shape := ⟨3, ![8, 512, 20000]⟩
abbrev S8x20000x512 : Shape := ⟨3, ![8, 20000, 512]⟩
abbrev S_ : Shape := ⟨0, ![]⟩
abbrev S320000x1 : Shape := ⟨2, ![320000, 1]⟩
abbrev S320000x2 : Shape := ⟨2, ![320000, 2]⟩
abbrev S320000x512 : Shape := ⟨2, ![320000, 512]⟩
abbrev S160000x512 : Shape := ⟨2, ![160000, 512]⟩
abbrev S160000 : Shape := ⟨1, ![160000]⟩
abbrev S8x20000x1 : Shape := ⟨3, ![8, 20000, 1]⟩
abbrev S1x512 : Shape := ⟨2, ![1, 512]⟩

abbrev nBuf : Space → Nat
  | .hbm => 58
  | .vmem => 0
  | .smem => 0
  | _ => 0

abbrev bufTy : (tb : Table) → Fin (tcTables nBuf tb) → BufTy
  | .hbm, ⟨0, _⟩ => ⟨S20000x512, .f32⟩
  | .hbm, ⟨1, _⟩ => ⟨S512x512, .f32⟩
  | .hbm, ⟨2, _⟩ => ⟨S8x512x512, .f32⟩
  | .hbm, ⟨3, _⟩ => ⟨S512, .f32⟩
  | .hbm, ⟨4, _⟩ => ⟨S2x320000, .i32⟩
  | .hbm, ⟨5, _⟩ => ⟨S320000, .i32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S20000x512, .f32⟩
  | .hbm, ⟨11, _⟩ => ⟨S8x512x20000, .f32⟩
  | .hbm, ⟨12, _⟩ => ⟨S8x20000x512, .f32⟩
  | .hbm, ⟨13, _⟩ => ⟨S_, .i32⟩
  | .hbm, ⟨14, _⟩ => ⟨S320000, .i32⟩
  | .hbm, ⟨15, _⟩ => ⟨S320000, .i1⟩
  | .hbm, ⟨16, _⟩ => ⟨S_, .i32⟩
  | .hbm, ⟨17, _⟩ => ⟨S320000, .i32⟩
  | .hbm, ⟨18, _⟩ => ⟨S320000, .i32⟩
  | .hbm, ⟨19, _⟩ => ⟨S320000, .i32⟩
  | .hbm, ⟨20, _⟩ => ⟨S_, .i32⟩
  | .hbm, ⟨21, _⟩ => ⟨S320000, .i32⟩
  | .hbm, ⟨22, _⟩ => ⟨S320000, .i1⟩
  | .hbm, ⟨23, _⟩ => ⟨S_, .i32⟩
  | .hbm, ⟨24, _⟩ => ⟨S320000, .i32⟩
  | .hbm, ⟨25, _⟩ => ⟨S320000, .i32⟩
  | .hbm, ⟨26, _⟩ => ⟨S320000, .i32⟩
  | .hbm, ⟨27, _⟩ => ⟨S320000x1, .i32⟩
  | .hbm, ⟨28, _⟩ => ⟨S320000x1, .i32⟩
  | .hbm, ⟨29, _⟩ => ⟨S320000x2, .i32⟩
  | .hbm, ⟨30, _⟩ => ⟨S320000x512, .f32⟩
  | .hbm, ⟨31, _⟩ => ⟨S_, .i32⟩
  | .hbm, ⟨32, _⟩ => ⟨S320000, .i32⟩
  | .hbm, ⟨33, _⟩ => ⟨S320000, .i32⟩
  | .hbm, ⟨34, _⟩ => ⟨S320000, .i32⟩
  | .hbm, ⟨35, _⟩ => ⟨S_, .f32⟩
  | .hbm, ⟨36, _⟩ => ⟨S160000x512, .f32⟩
  | .hbm, ⟨37, _⟩ => ⟨S320000x1, .i32⟩
  | .hbm, ⟨38, _⟩ => ⟨S160000x512, .f32⟩
  | .hbm, ⟨39, _⟩ => ⟨S8x20000x512, .f32⟩
  | .hbm, ⟨40, _⟩ => ⟨S_, .f32⟩
  | .hbm, ⟨41, _⟩ => ⟨S320000, .f32⟩
  | .hbm, ⟨42, _⟩ => ⟨S_, .f32⟩
  | .hbm, ⟨43, _⟩ => ⟨S160000, .f32⟩
  | .hbm, ⟨44, _⟩ => ⟨S320000x1, .i32⟩
  | .hbm, ⟨45, _⟩ => ⟨S160000, .f32⟩
  | .hbm, ⟨46, _⟩ => ⟨S8x20000x1, .f32⟩
  | .hbm, ⟨47, _⟩ => ⟨S_, .f32⟩
  | .hbm, ⟨48, _⟩ => ⟨S8x20000x1, .f32⟩
  | .hbm, ⟨49, _⟩ => ⟨S8x20000x1, .f32⟩
  | .hbm, ⟨50, _⟩ => ⟨S8x20000x512, .f32⟩
  | .hbm, ⟨51, _⟩ => ⟨S8x20000x512, .f32⟩
  | .hbm, ⟨52, _⟩ => ⟨S_, .f32⟩
  | .hbm, ⟨53, _⟩ => ⟨S20000x512, .f32⟩
  | .hbm, ⟨54, _⟩ => ⟨S20000x512, .f32⟩
  | .hbm, ⟨55, _⟩ => ⟨S1x512, .f32⟩
  | .hbm, ⟨56, _⟩ => ⟨S20000x512, .f32⟩
  | .hbm, ⟨57, _⟩ => ⟨S20000x512, .f32⟩
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  transposes_S8x512x20000_S8x20000x512_0_2_1 : S8x512x20000.Transposes [0, 2, 1] S8x20000x512
  bcast_S_S320000 : S_.BroadcastsInDim S320000 (![] : Fin 0 → Fin S320000.rank)
  bcast_S320000_S320000x1_0 : S320000.BroadcastsInDim S320000x1 (![0] : Fin 1 → Fin S320000x1.rank)
  concatenates_S320000x1_S320000x1_S320000x2_d1 : Shape.Concatenates [S320000x1, S320000x1] S320000x2 1
  bcast_S_S160000x512 : S_.BroadcastsInDim S160000x512 (![] : Fin 0 → Fin S160000x512.rank)
  shapeCasts_S160000x512_S8x20000x512 : S160000x512.ShapeCasts S8x20000x512
  bcast_S_S160000 : S_.BroadcastsInDim S160000 (![] : Fin 0 → Fin S160000.rank)
  shapeCasts_S160000_S8x20000x1 : S160000.ShapeCasts S8x20000x1
  bcast_S_S8x20000x1 : S_.BroadcastsInDim S8x20000x1 (![] : Fin 0 → Fin S8x20000x1.rank)
  bcast_S8x20000x1_S8x20000x512_0_1_2 : S8x20000x1.BroadcastsInDim S8x20000x512 (![0, 1, 2] : Fin 3 → Fin S8x20000x512.rank)
  reducesTo_S8x20000x512_S20000x512_d0 : S8x20000x512.ReducesTo [0] S20000x512
  h_S_ : 0 < S_.numel
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  dot_S20000x512_S512x512_S20000x512_1_1_0_0_n_n_wf : DotDims.WF S20000x512 S512x512 S20000x512 [1] [1] [0] [0] [] []
  dot_S8x512x512_S20000x512_S8x512x20000_2_1_01_0_n_n_wf : DotDims.WF S8x512x512 S20000x512 S8x512x20000 [2] [1] [0, 1] [0] [] []
  gather_S8x20000x512_S320000x2_S320000x512_1_01_n_n_01_1_11512_wf : GatherDims.WF S8x20000x512 S320000x2 S320000x512 [1] [0, 1] [] [0, 1] [] 1 ![1, 1, 512]
  scatter_S160000x512_S320000x1_S320000x512_1_0_0_1_wf : ScatterDims.WF S160000x512 S320000x1 S320000x512 [1] [0] [0] 1
  scatter_S160000_S320000x1_S320000_n_0_0_1_wf : ScatterDims.WF S160000 S320000x1 S320000 [] [0] [0] 1

variable [Facts₀]

def dot_S20000x512_S512x512_S20000x512_1_1_0_0_n_n : DotDims S20000x512 S512x512 S20000x512 where
  lhsContracting := [1]
  rhsContracting := [1]
  lhsNonContracting := [0]
  rhsNonContracting := [0]
  lhsBatch := []
  rhsBatch := []
  wf := dot_S20000x512_S512x512_S20000x512_1_1_0_0_n_n_wf
def dot_S8x512x512_S20000x512_S8x512x20000_2_1_01_0_n_n : DotDims S8x512x512 S20000x512 S8x512x20000 where
  lhsContracting := [2]
  rhsContracting := [1]
  lhsNonContracting := [0, 1]
  rhsNonContracting := [0]
  lhsBatch := []
  rhsBatch := []
  wf := dot_S8x512x512_S20000x512_S8x512x20000_2_1_01_0_n_n_wf
def gather_S8x20000x512_S320000x2_S320000x512_1_01_n_n_01_1_11512 : GatherDims S8x20000x512 S320000x2 S320000x512 where
  offsetDims := [1]
  collapsedSliceDims := [0, 1]
  operandBatchingDims := []
  startIndicesBatchingDims := []
  startIndexMap := [0, 1]
  indexVectorDim := 1
  sliceSizes := ![1, 1, 512]
  wf := gather_S8x20000x512_S320000x2_S320000x512_1_01_n_n_01_1_11512_wf
def scatter_S160000x512_S320000x1_S320000x512_1_0_0_1 : ScatterDims S160000x512 S320000x1 S320000x512 where
  updateWindowDims := [1]
  insertedWindowDims := [0]
  scatterDimsToOperandDims := [0]
  indexVectorDim := 1
  wf := scatter_S160000x512_S320000x1_S320000x512_1_0_0_1_wf
def scatter_S160000_S320000x1_S320000_n_0_0_1 : ScatterDims S160000 S320000x1 S320000 where
  updateWindowDims := []
  insertedWindowDims := [0]
  scatterDimsToOperandDims := [0]
  indexVectorDim := 1
  wf := scatter_S160000_S320000x1_S320000_n_0_0_1_wf

class Facts : Prop extends Facts₀ where

variable [Facts]
-- ==== Proof.Spec.lean ====
/-
  The shared vocabulary of this certificate, over no program: the shapes of the six arguments, and what both programs
  compute from the two integer arguments before any float is touched.

  An edge `e` carries three words: its source `src e` and destination `dst e` (rows 0 and 1 of `edge_index`) and
  its relation `et e`. Both programs read a source row through a gather: a negative index is shifted up by the node count
  once, and the result is clamped into the table (`rowOf`). The reference also gathers by relation, shifted by the relation
  count and clamped (`relOf`). Both programs accumulate edge `e` into the flat bucket `et e * 20000 + dst e`, computed
  in 32-bit words and read signed (`segW`); bucket `s` collects the edges whose word reads `s` (`bucket`).
-/
import Idealize.ShloMosaic.PureOps.Ideal
import Idealize.ShloMosaic.Lib.ValueIdx

noncomputable section

namespace Cert.Rgcn

open Idealize.ShloMosaic Idealize.ShloMosaic.ValueIdx

/-- Node features, and the result: 20000 nodes, 512 channels. -/
abbrev SX : Shape := ⟨2, ![20000, 512]⟩
/-- The self weight, stored output channel by input channel. -/
abbrev SWs : Shape := ⟨2, ![512, 512]⟩
/-- One such weight per relation. -/
abbrev SWr : Shape := ⟨3, ![8, 512, 512]⟩
/-- The bias, one entry per output channel. -/
abbrev SB : Shape := ⟨1, ![512]⟩
/-- `edge_index`: row 0 the sources, row 1 the destinations. -/
abbrev SEi : Shape := ⟨2, ![2, 320000]⟩
/-- `edge_type`: one relation per edge. -/
abbrev SEt : Shape := ⟨1, ![320000]⟩

/-- Edge `e`'s source word. -/
def srcW (ei : IVec SEi 32) (e : Fin 320000) : BitVec 32 := ei (ix2 (0 : Fin 2) e)
/-- Edge `e`'s destination word. -/
def dstW (ei : IVec SEi 32) (e : Fin 320000) : BitVec 32 := ei (ix2 (1 : Fin 2) e)
/-- Edge `e`'s relation word. -/
def relW (et : IVec SEt 32) (e : Fin 320000) : BitVec 32 := et (ix1 e)

/-- The source word as the gathers see it: a negative word shifted up by the node count. -/
def srcN (ei : IVec SEi 32) (e : Fin 320000) : BitVec 32 :=
  Scalar.select (IntOp.cmpi .slt (srcW ei e) 0#32) (IntOp.addi (srcW ei e) 20000#32) (srcW ei e)
/-- The relation word as the reference's gather sees it: a negative word shifted up by the relation count. -/
def relN (et : IVec SEt 32) (e : Fin 320000) : BitVec 32 :=
  Scalar.select (IntOp.cmpi .slt (relW et e) 0#32) (IntOp.addi (relW et e) 8#32) (relW et e)

/-- The node row a gather reads for edge `e`: the shifted source word, read signed and clamped into the table. -/
def rowOf (ei : IVec SEi 32) (e : Fin 320000) : Fin 20000 := ⟨min (srcN ei e).toInt.toNat 19999, by omega⟩
/-- The relation the reference's gather reads for edge `e`: the shifted relation word, read signed and clamped. -/
def relOf (et : IVec SEt 32) (e : Fin 320000) : Fin 8 := ⟨min (relN et e).toInt.toNat 7, by omega⟩

/-- The flat bucket word of edge `e`: relation times node count plus destination, in 32-bit arithmetic. -/
def segW (ei : IVec SEi 32) (et : IVec SEt 32) (e : Fin 320000) : BitVec 32 :=
  IntOp.addi (IntOp.muli (relW et e) 20000#32) (dstW ei e)

/-- The edges accumulated into flat bucket `s`: those whose bucket word, read signed, is `s`. -/
def bucket (ei : IVec SEi 32) (et : IVec SEt 32) (s : ℕ) : Finset (Fin 320000) :=
  Finset.univ.filter fun e => (segW ei et e).toInt = (s : ℤ)

/-- The float zero both programs start their accumulations from, and the one they count edges with and clamp counts at. -/
abbrev fzero : EReal := Ideal.ofBits .f32 0x00000000#32
abbrev fone : EReal := Ideal.ofBits .f32 0x3F800000#32

/-- The divisor of bucket `s`: its edge count, accumulated from zero in ones, clamped below at one. -/
def cntOf (ei : IVec SEi 32) (et : IVec SEt 32) (s : ℕ) : EReal := max (fzero + ∑ _e ∈ bucket ei et s, fone) fone

end Cert.Rgcn

end
-- ==== Proof.KernelArrays.lean ====
/-
  Names, at their literal shapes, for the arrays the kernel program's value proof speaks of on core `c`: the six
  arguments as launched, the five arrays the pallas_call's windows stage as the region finds them, and the result
  array after the run.
-/
import proofs.«419077_j11003706212538_1_alg».proof.Proof.Gen.KernelIdeal.Frame
import proofs.«419077_j11003706212538_1_alg».proof.Proof.Spec

noncomputable section

namespace Cert.KernelIdeal.Arr

open Cert.KernelIdeal Cert.KernelIdeal.Gen Idealize.ShloMosaic Idealize.ShloMosaic.TcCoe Idealize.SL.Sem

variable (m : (ℓ : Loc nD τ sig) → Buf (Elt Ideal) ℓ)

/-- The arguments as launched: node features, self weight, relation weights, bias, edge endpoints, edge relations. -/
abbrev xArg (c : Dev nD) : FVec Ideal Cert.Rgcn.SX .f32 := m ((c.tc : Thread nD τ).loc main_arg0)
abbrev wsArg (c : Dev nD) : FVec Ideal Cert.Rgcn.SWs .f32 := m ((c.tc : Thread nD τ).loc main_arg1)
abbrev wrArg (c : Dev nD) : FVec Ideal Cert.Rgcn.SWr .f32 := m ((c.tc : Thread nD τ).loc main_arg2)
abbrev bArg (c : Dev nD) : FVec Ideal Cert.Rgcn.SB .f32 := m ((c.tc : Thread nD τ).loc main_arg3)
abbrev eiArg (c : Dev nD) : IVec Cert.Rgcn.SEi 32 := m ((c.tc : Thread nD τ).loc main_arg4)
abbrev etArg (c : Dev nD) : IVec Cert.Rgcn.SEt 32 := m ((c.tc : Thread nD τ).loc main_arg5)

/-- The staged arrays as the region finds them: the node features, the self weight, the per-relation bucket averages,
    the per-relation weights, the bias row. -/
abbrev xA (c : Dev nD) : FVec Ideal S20000x512 .bf16 := V m c main_v28
abbrev wsA (c : Dev nD) : FVec Ideal S512x512 .bf16 := V m c main_v29
abbrev aggA (c : Dev nD) : FVec Ideal S8x20000x512 .bf16 := V m c main_v27
abbrev wrA (c : Dev nD) : FVec Ideal S8x512x512 .bf16 := V m c main_v30
abbrev bA (c : Dev nD) : FVec Ideal S1x512 .f32 := V m c main_v31

/-- The result array after the run. -/
abbrev outA (c : Dev nD) : FVec Ideal S20000x512 .f32 := (dats m 0 c).arrAt 5 cfg0.N

end Cert.KernelIdeal.Arr

end
-- ==== Proof.KernelPieces.lean ====
/-
  What one run of the kernel body leaves behind, as values. The body keeps a running block in a scratch:
  at a tile's first relation it stores the self product x · W_selfᵀ there, reads it back and stores it plus the
  relation's product agg · W_relᵀ; at every other relation it stores what the scratch held plus that relation's product;
  at the last relation it also stores, into the output block, the updated scratch plus the bias row. The three
  stored values are read at an entry: a product block's entry is a sum over the 512 input channels.
-/
import proofs.«419077_j11003706212538_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.ValueIdx

/-- The all-zero offset of a rank-2 block. -/
private theorem hz2 : (![0, 0] : Fin 2 → Nat) = fun _ => 0 := funext fun a => by fin_cases a <;> rfl

/-- The all-zero offset of a rank-3 block. -/
private theorem hz3 : (![0, 0, 0] : Fin 3 → Nat) = fun _ => 0 := funext fun a => by fin_cases a <;> rfl

section AnyInstance
variable {F : FTy → Type} [FloatOps F]

/-- A tile's first relation leaves in the scratch the self product plus that relation's product. -/
theorem sout_A (c : Dev nD) (i : grid0.Coords) (arg2 : Memref sig .tc .vmem S2000x512 .bf16) (harg2 : arg2.IsWhole) (arg3 : Memref sig .tc .vmem S512x512 .bf16) (harg3 : arg3.IsWhole) (arg4 : Memref sig .tc .vmem S1x2000x512 .bf16) (harg4 : arg4.IsWhole) (arg5 : Memref sig .tc .vmem S1x512x512 .bf16) (harg5 : arg5.IsWhole) (arg6 : Memref sig .tc .vmem S1x512 .f32) (harg6 : arg6.IsWhole) (arg7 : Memref sig .tc .vmem S2000x512 .f32) (harg7 : arg7.IsWhole) (arg8 : Memref sig .tc .vmem S2000x512 .f32) (harg8 : arg8.IsWhole) (hc0 : cond0_0 i) (hc1 : ¬cond0_1 i)
    (x0 : Vec F S2000x512 .bf16) (x1 : Vec F S512x512 .bf16) (x2 : Vec F S1x2000x512 .bf16) (x3 : Vec F S1x512x512 .bf16) (x4 : Vec F S1x512 .f32) :
    sout0_A_0 c i arg2 harg2 arg3 harg3 arg4 harg4 arg5 harg5 arg6 harg6 arg7 harg7 arg8 harg8 hc0 hc1 x0 x1 x2 x3 x4 = k0_pay2 (k0_pay1 x0 x1) x2 x3 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S2000x512) hz2, View.readCov_unit_zero (S := S2000x512) _ hz2]
  simp only [View.readAt_eq_ld, harg2.read_unread, harg3.read_unread, harg4.read_unread, harg5.read_unread,
    View.ld_unit_zero (S := S2000x512) hz2, View.ld_unit_zero (S := S512x512) hz2,
    View.ld_unit_zero (S := S1x2000x512) hz3, View.ld_unit_zero (S := S1x512x512) hz3]

/-- A middle relation leaves in the scratch what it held (`xs0`) plus that relation's product. -/
theorem sout_B (c : Dev nD) (i : grid0.Coords) (arg2 : Memref sig .tc .vmem S2000x512 .bf16) (harg2 : arg2.IsWhole) (arg3 : Memref sig .tc .vmem S512x512 .bf16) (harg3 : arg3.IsWhole) (arg4 : Memref sig .tc .vmem S1x2000x512 .bf16) (harg4 : arg4.IsWhole) (arg5 : Memref sig .tc .vmem S1x512x512 .bf16) (harg5 : arg5.IsWhole) (arg6 : Memref sig .tc .vmem S1x512 .f32) (harg6 : arg6.IsWhole) (arg7 : Memref sig .tc .vmem S2000x512 .f32) (harg7 : arg7.IsWhole) (arg8 : Memref sig .tc .vmem S2000x512 .f32) (harg8 : arg8.IsWhole) (hc0 : ¬cond0_0 i) (hc1 : ¬cond0_1 i)
    (x0 : Vec F S2000x512 .bf16) (x1 : Vec F S512x512 .bf16) (x2 : Vec F S1x2000x512 .bf16) (x3 : Vec F S1x512x512 .bf16) (x4 : Vec F S1x512 .f32) (xs0 : Vec F S2000x512 .f32) :
    sout0_B_0 c i arg2 harg2 arg3 harg3 arg4 harg4 arg5 harg5 arg6 harg6 arg7 harg7 arg8 harg8 hc0 hc1 x0 x1 x2 x3 x4 xs0 = k0_pay2 xs0 x2 x3 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  rw [View.canon_unit_zero (S := S2000x512) hz2]
  simp only [View.readAt_eq_ld, harg8.read_unread, harg4.read_unread, harg5.read_unread,
    View.ld_unit_zero (S := S2000x512) hz2, View.ld_unit_zero (S := S1x2000x512) hz3,
    View.ld_unit_zero (S := S1x512x512) hz3]

/-- So does the last relation … -/
theorem sout_C (c : Dev nD) (i : grid0.Coords) (arg2 : Memref sig .tc .vmem S2000x512 .bf16) (harg2 : arg2.IsWhole) (arg3 : Memref sig .tc .vmem S512x512 .bf16) (harg3 : arg3.IsWhole) (arg4 : Memref sig .tc .vmem S1x2000x512 .bf16) (harg4 : arg4.IsWhole) (arg5 : Memref sig .tc .vmem S1x512x512 .bf16) (harg5 : arg5.IsWhole) (arg6 : Memref sig .tc .vmem S1x512 .f32) (harg6 : arg6.IsWhole) (arg7 : Memref sig .tc .vmem S2000x512 .f32) (harg7 : arg7.IsWhole) (arg8 : Memref sig .tc .vmem S2000x512 .f32) (harg8 : arg8.IsWhole) (hc0 : ¬cond0_0 i) (hc1 : cond0_1 i)
    (x0 : Vec F S2000x512 .bf16) (x1 : Vec F S512x512 .bf16) (x2 : Vec F S1x2000x512 .bf16) (x3 : Vec F S1x512x512 .bf16) (x4 : Vec F S1x512 .f32) (xs0 : Vec F S2000x512 .f32) :
    sout0_C_0 c i arg2 harg2 arg3 harg3 arg4 harg4 arg5 harg5 arg6 harg6 arg7 harg7 arg8 harg8 hc0 hc1 x0 x1 x2 x3 x4 xs0 = k0_pay2 xs0 x2 x3 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero (S := S2000x512) hz2]
  simp only [View.readAt_eq_ld, harg8.read_unread, harg4.read_unread, harg5.read_unread,
    View.ld_unit_zero (S := S2000x512) hz2, View.ld_unit_zero (S := S1x2000x512) hz3,
    View.ld_unit_zero (S := S1x512x512) hz3]

/-- … which also leaves in the output block the updated scratch plus the bias row. -/
theorem out_C (c : Dev nD) (i : grid0.Coords) (arg2 : Memref sig .tc .vmem S2000x512 .bf16) (harg2 : arg2.IsWhole) (arg3 : Memref sig .tc .vmem S512x512 .bf16) (harg3 : arg3.IsWhole) (arg4 : Memref sig .tc .vmem S1x2000x512 .bf16) (harg4 : arg4.IsWhole) (arg5 : Memref sig .tc .vmem S1x512x512 .bf16) (harg5 : arg5.IsWhole) (arg6 : Memref sig .tc .vmem S1x512 .f32) (harg6 : arg6.IsWhole) (arg7 : Memref sig .tc .vmem S2000x512 .f32) (harg7 : arg7.IsWhole) (arg8 : Memref sig .tc .vmem S2000x512 .f32) (harg8 : arg8.IsWhole) (hc0 : ¬cond0_0 i) (hc1 : cond0_1 i)
    (x0 : Vec F S2000x512 .bf16) (x1 : Vec F S512x512 .bf16) (x2 : Vec F S1x2000x512 .bf16) (x3 : Vec F S1x512x512 .bf16) (x4 : Vec F S1x512 .f32) (xs0 : Vec F S2000x512 .f32) :
    out0_C_5 c i arg2 harg2 arg3 harg3 arg4 harg4 arg5 harg5 arg6 harg6 arg7 harg7 arg8 harg8 hc0 hc1 x0 x1 x2 x3 x4 xs0 = k0_pay3 (k0_pay2 xs0 x2 x3) x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero (S := S2000x512) hz2, View.readCov_unit_zero (S := S2000x512) _ hz2]
  simp only [View.readAt_eq_ld, harg8.read_unread, harg4.read_unread, harg5.read_unread, harg6.read_unread,
    View.ld_unit_zero (S := S2000x512) hz2, View.ld_unit_zero (S := S1x2000x512) hz3,
    View.ld_unit_zero (S := S1x512x512) hz3, View.ld_unit_zero (S := S1x512) hz2]

end AnyInstance

/-! ### The product block at an entry

The kernel's product contracts axis 1 of the left block with axis 1 of the right one: at output entry (q, o) and
contraction coordinate k it reads the left block at (q, k) and the right one at (o, k). -/

/-- The left operand's row is the output's row. -/
private theorem lhs_dot_0 (i : S2000x512.Idx) (q : dot_S2000x512_S512x512_S2000x512_1_1_0_0_n_n.contr.Idx) :
    (dot_S2000x512_S512x512_S2000x512_1_1_0_0_n_n.lhsIdx i q 0).val = (i 0).val := by
  unfold DotDims.lhsIdx
  rw [dif_neg (show ¬(0 : Fin S2000x512.rank) ∈ dot_S2000x512_S512x512_S2000x512_1_1_0_0_n_n.lhsBatch by decide), dif_pos (show (0 : Fin S2000x512.rank) ∈ dot_S2000x512_S512x512_S2000x512_1_1_0_0_n_n.lhsNonContracting by decide)]
  rfl
/-- The left operand's column is the contraction coordinate. -/
private theorem lhs_dot_1 (i : S2000x512.Idx) (q : dot_S2000x512_S512x512_S2000x512_1_1_0_0_n_n.contr.Idx) :
    (dot_S2000x512_S512x512_S2000x512_1_1_0_0_n_n.lhsIdx i q 1).val = (q ⟨0, by decide⟩).val :=
  dot_S2000x512_S512x512_S2000x512_1_1_0_0_n_n.lhsIdx_val_of_single rfl i q
/-- The right operand's row is the output's column. -/
private theorem rhs_dot_0 (i : S2000x512.Idx) (q : dot_S2000x512_S512x512_S2000x512_1_1_0_0_n_n.contr.Idx) :
    (dot_S2000x512_S512x512_S2000x512_1_1_0_0_n_n.rhsIdx i q 0).val = (i 1).val := by
  unfold DotDims.rhsIdx
  rw [dif_neg (show ¬(0 : Fin S512x512.rank) ∈ dot_S2000x512_S512x512_S2000x512_1_1_0_0_n_n.rhsBatch by decide), dif_pos (show (0 : Fin S512x512.rank) ∈ dot_S2000x512_S512x512_S2000x512_1_1_0_0_n_n.rhsNonContracting by decide)]
  rfl
/-- The right operand's column is the contraction coordinate. -/
private theorem rhs_dot_1 (i : S2000x512.Idx) (q : dot_S2000x512_S512x512_S2000x512_1_1_0_0_n_n.contr.Idx) :
    (dot_S2000x512_S512x512_S2000x512_1_1_0_0_n_n.rhsIdx i q 1).val = (q ⟨0, by decide⟩).val :=
  dot_S2000x512_S512x512_S2000x512_1_1_0_0_n_n.rhsIdx_val_of_single rfl i q

/-- The product onto the zero block, at (q, o): the sum over the 512 channels of left (q, k) times right (o, k). -/
private theorem matmul_zero_apply (a : FVec Ideal S2000x512 .bf16) (b : FVec Ideal S512x512 .bf16) (q : Fin 2000) (o : Fin 512) :
    matmul (F := Ideal) dot_S2000x512_S512x512_S2000x512_1_1_0_0_n_n none a b (constant (F := Ideal) S2000x512 .f32 0x00000000#32) (ix2 q o)
      = ∑ k : Fin 512, a (ix2 q k) * b (ix2 o k) := by
  refine (Ideal.matmul_constant_zero_apply dot_S2000x512_S512x512_S2000x512_1_1_0_0_n_n none a b (ix2 q o)).trans ?_
  rw [← Equiv.sum_comp (ValueIdx.contrEquiv1 dot_S2000x512_S512x512_S2000x512_1_1_0_0_n_n 512 rfl rfl).symm]
  refine Finset.sum_congr rfl fun k _ => ?_
  have hk := ValueIdx.contrEquiv1_symm_val dot_S2000x512_S512x512_S2000x512_1_1_0_0_n_n 512 rfl rfl k
  have el : dot_S2000x512_S512x512_S2000x512_1_1_0_0_n_n.lhsIdx (ix2 q o) ((ValueIdx.contrEquiv1 dot_S2000x512_S512x512_S2000x512_1_1_0_0_n_n 512 rfl rfl).symm k) = ix2 q k := funext fun a => Fin.ext (by
    match a with
    | ⟨0, _⟩ => exact lhs_dot_0 _ _
    | ⟨1, _⟩ => exact (lhs_dot_1 _ _).trans hk)
  have er : dot_S2000x512_S512x512_S2000x512_1_1_0_0_n_n.rhsIdx (ix2 q o) ((ValueIdx.contrEquiv1 dot_S2000x512_S512x512_S2000x512_1_1_0_0_n_n 512 rfl rfl).symm k) = ix2 o k := funext fun a => Fin.ext (by
    match a with
    | ⟨0, _⟩ => exact rhs_dot_0 _ _
    | ⟨1, _⟩ => exact (rhs_dot_1 _ _).trans hk)
  rw [el, er]

/-- The self product at row `q`, output channel `o`: row `q` of the feature block against row `o` of the weight. -/
theorem pay1_apply (x0 : FVec Ideal S2000x512 .bf16) (x1 : FVec Ideal S512x512 .bf16) (q : Fin 2000) (o : Fin 512) :
    k0_pay1 (F := Ideal) x0 x1 (ix2 q o) = ∑ k : Fin 512, x0 (ix2 q k) * x1 (ix2 o k) := by
  unfold k0_pay1
  simp only [shapeCast_self]
  exact matmul_zero_apply x0 x1 q o

/-- The running block plus a relation's product, at (q, o). -/
theorem pay2_apply (acc : FVec Ideal S2000x512 .f32) (x2 : FVec Ideal S1x2000x512 .bf16) (x3 : FVec Ideal S1x512x512 .bf16)
    (q : Fin 2000) (o : Fin 512) :
    k0_pay2 (F := Ideal) acc x2 x3 (ix2 q o)
      = acc (ix2 q o) + ∑ k : Fin 512, x2 (ix3 (0 : Fin 1) q k) * x3 (ix3 (0 : Fin 1) o k) := by
  unfold k0_pay2
  simp only [shapeCast_self]
  rw [addf_apply, matmul_zero_apply]
  refine congrArg (acc (ix2 q o) + ·) (Finset.sum_congr rfl fun k _ => ?_)
  rw [shapeCast_1ab_ab_apply, shapeCast_1ab_ab_apply]

/-- The running block plus the bias row, at (q, o). -/
theorem pay3_apply (acc : FVec Ideal S2000x512 .f32) (x4 : FVec Ideal S1x512 .f32) (q : Fin 2000) (o : Fin 512) :
    k0_pay3 (F := Ideal) acc x4 (ix2 q o) = acc (ix2 q o) + x4 (ix2 (0 : Fin 1) o) := by
  unfold k0_pay3
  simp only [shapeCast_self]
  rw [addf_apply, broadcastTo_1b_ab_apply]

end Cert.KernelIdeal.Pieces

end
-- ==== Proof.KernelBlocks.lean ====
/-
  The kernel's result array, entry by entry, as a function of the five arrays its windows stage. The grid walks ten
  node tiles of 2000 rows, and within a tile the eight relations. At relation 0 the scratch is set to the tile's self
  term and the relation's term is added; at relations 1 to 7 the relation's term is added; after relation 7 the scratch
  plus the bias row is stored, and that block is written back. So entry (n, o) ends at
  (∑ k, x n k * Ws o k  +  ∑ over the eight relations r of ∑ k, agg r n k * Wr r o k)  +  b o,
  the relations added in order.
-/
import proofs.«419077_j11003706212538_1_alg».proof.Proof.Gen.KernelIdeal.Value
import proofs.«419077_j11003706212538_1_alg».proof.Proof.KernelArrays
import proofs.«419077_j11003706212538_1_alg».proof.Proof.KernelPieces
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Blocks

open Cert.KernelIdeal Cert.KernelIdeal.Gen Cert.KernelIdeal.Arr Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Relation `s` (taken modulo 8, so that the statement needs no bound) of node `n`, output channel `o`: the bucket
    average's row contracted with the relation's weight row. -/
def relTerm (c : Dev nD) (n : Fin 20000) (o : Fin 512) (s : ℕ) : EReal :=
  ∑ k : Fin 512, aggA m c (ix3 (⟨s % 8, Nat.mod_lt _ (by decide)⟩ : Fin 8) n k) * wrA m c (ix3 (⟨s % 8, Nat.mod_lt _ (by decide)⟩ : Fin 8) o k)

/-- The printed index maps, decided once over the grid: the tile is the point's quotient by 8, the relation its remainder. -/
private theorem idx_facts : ∀ t : Fin cfg0.N,
    win0_0.index t (0 : Fin 2) = t.val / 8 ∧ win0_0.index t (1 : Fin 2) = 0
    ∧ win0_1.index t (0 : Fin 2) = 0 ∧ win0_1.index t (1 : Fin 2) = 0
    ∧ win0_2.index t (0 : Fin 3) = t.val % 8 ∧ win0_2.index t (1 : Fin 3) = t.val / 8 ∧ win0_2.index t (2 : Fin 3) = 0
    ∧ win0_3.index t (0 : Fin 3) = t.val % 8 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val / 8 ∧ win0_5.index t (1 : Fin 2) = 0 :=
  (by decide +kernel : ∀ t : Fin grid0.N, _)

/-! ## The staged blocks at a point, at their literal shapes, read at an entry -/

private abbrev xB (c : Dev nD) (t : Fin cfg0.N) : FVec Ideal S2000x512 .bf16 := iblk m c 0 t
private abbrev wsB (c : Dev nD) (t : Fin cfg0.N) : FVec Ideal S512x512 .bf16 := iblk m c 1 t
private abbrev aggB (c : Dev nD) (t : Fin cfg0.N) : FVec Ideal S1x2000x512 .bf16 := iblk m c 2 t
private abbrev wrB (c : Dev nD) (t : Fin cfg0.N) : FVec Ideal S1x512x512 .bf16 := iblk m c 3 t
private abbrev bB (c : Dev nD) (t : Fin cfg0.N) : FVec Ideal S1x512 .f32 := iblk m c 4 t

/-- Row `q` of the feature block at point `t` is row `2000 · (t / 8) + q` of the features. -/
private theorem xB_apply (c : Dev nD) (t : Fin cfg0.N) (q : Fin 2000) (k : Fin 512) (r : Fin 20000) (hr : r.val = 2000 * (t.val / 8) + q.val) :
    xB m c t (ix2 q k) = xA m c (ix2 r k) := by
  obtain ⟨e0, e1, -⟩ := idx_facts t
  show V m c main_v28 (((cfg0.win 0).blk t).view.emb (ix2 q k)) = V m c main_v28 (ix2 r k)
  congr 1
  funext a
  apply Fin.ext
  match a with
  | ⟨0, _⟩ => show win0_0.index t (0 : Fin 2) * 2000 + 1 * q.val = r.val; omega
  | ⟨1, _⟩ => show win0_0.index t (1 : Fin 2) * 512 + 1 * k.val = k.val; omega

/-- The self weight's block is the whole weight. -/
private theorem wsB_apply (c : Dev nD) (t : Fin cfg0.N) (o k : Fin 512) :
    wsB m c t (ix2 o k) = wsA m c (ix2 o k) := by
  obtain ⟨-, -, e2, e3, -⟩ := idx_facts t
  show V m c main_v29 (((cfg0.win 1).blk t).view.emb (ix2 o k)) = V m c main_v29 (ix2 o k)
  congr 1
  funext a
  apply Fin.ext
  match a with
  | ⟨0, _⟩ => show win0_1.index t (0 : Fin 2) * 512 + 1 * o.val = o.val; omega
  | ⟨1, _⟩ => show win0_1.index t (1 : Fin 2) * 512 + 1 * k.val = k.val; omega

/-- Row `q` of the bucket-average block at point `t` is relation `t % 8`, row `2000 · (t / 8) + q`. -/
private theorem aggB_apply (c : Dev nD) (t : Fin cfg0.N) (q : Fin 2000) (k : Fin 512) (s : Fin 8) (r : Fin 20000)
    (hs : s.val = t.val % 8) (hr : r.val = 2000 * (t.val / 8) + q.val) :
    aggB m c t (ix3 (0 : Fin 1) q k) = aggA m c (ix3 s r k) := by
  obtain ⟨-, -, -, -, e4, e5, e6, -⟩ := idx_facts t
  show V m c main_v27 (((cfg0.win 2).blk t).view.emb (ix3 (0 : Fin 1) q k)) = V m c main_v27 (ix3 s r k)
  congr 1
  funext a
  apply Fin.ext
  match a with
  | ⟨0, _⟩ => show win0_2.index t (0 : Fin 3) * 1 + 1 * 0 = s.val; omega
  | ⟨1, _⟩ => show win0_2.index t (1 : Fin 3) * 2000 + 1 * q.val = r.val; omega
  | ⟨2, _⟩ => show win0_2.index t (2 : Fin 3) * 512 + 1 * k.val = k.val; omega

/-- The relation weight's block at point `t` is relation `t % 8`'s weight. -/
private theorem wrB_apply (c : Dev nD) (t : Fin cfg0.N) (o k : Fin 512) (s : Fin 8) (hs : s.val = t.val % 8) :
    wrB m c t (ix3 (0 : Fin 1) o k) = wrA m c (ix3 s o k) := by
  obtain ⟨-, -, -, -, -, -, -, e7, e8, e9, -⟩ := idx_facts t
  show V m c main_v30 (((cfg0.win 3).blk t).view.emb (ix3 (0 : Fin 1) o k)) = V m c main_v30 (ix3 s o k)
  congr 1
  funext a
  apply Fin.ext
  match a with
  | ⟨0, _⟩ => show win0_3.index t (0 : Fin 3) * 1 + 1 * 0 = s.val; omega
  | ⟨1, _⟩ => show win0_3.index t (1 : Fin 3) * 512 + 1 * o.val = o.val; omega
  | ⟨2, _⟩ => show win0_3.index t (2 : Fin 3) * 512 + 1 * k.val = k.val; omega

/-- The bias block is the whole bias row. -/
private theorem bB_apply (c : Dev nD) (t : Fin cfg0.N) (o : Fin 512) :
    bB m c t (ix2 (0 : Fin 1) o) = bA m c (ix2 (0 : Fin 1) o) := by
  obtain ⟨-, -, -, -, -, -, -, -, -, -, e10, e11, -⟩ := idx_facts t
  show V m c main_v31 (((cfg0.win 4).blk t).view.emb (ix2 (0 : Fin 1) o)) = V m c main_v31 (ix2 (0 : Fin 1) o)
  congr 1
  funext a
  apply Fin.ext
  match a with
  | ⟨0, _⟩ => show win0_4.index t (0 : Fin 2) * 1 + 1 * 0 = 0; omega
  | ⟨1, _⟩ => show win0_4.index t (1 : Fin 2) * 512 + 1 * o.val = o.val; omega

/-- An entry of the result block at point `t` sits in the result array at row `2000 · (t / 8) + q`. -/
private theorem emb5 (t : Fin cfg0.N) (q : Fin 2000) (o : Fin 512) (r : Fin 20000) (hr : r.val = 2000 * (t.val / 8) + q.val) :
    ((cfg0.win 5).blk t).view.emb (ix2 q o) = ix2 r o := by
  obtain ⟨-, -, -, -, -, -, -, -, -, -, -, -, e12, e13⟩ := idx_facts t
  funext a
  apply Fin.ext
  match a with
  | ⟨0, _⟩ => show win0_5.index t (0 : Fin 2) * 2000 + 1 * q.val = r.val; omega
  | ⟨1, _⟩ => show win0_5.index t (1 : Fin 2) * 512 + 1 * o.val = o.val; omega

/-! ## What one point leaves in the scratch, at an entry -/

/-- The self term of node `r`, output channel `o`: the feature row contracted with the self weight's row. -/
private def selfTerm (c : Dev nD) (r : Fin 20000) (o : Fin 512) : EReal :=
  ∑ k : Fin 512, xA m c (ix2 r k) * wsA m c (ix2 o k)

/-- A relation's term depends on the relation number modulo 8 only. -/
private theorem relTerm_congr (c : Dev nD) (r : Fin 20000) (o : Fin 512) (s s' : ℕ) (h : s % 8 = s' % 8) :
    relTerm m c r o s = relTerm m c r o s' := by
  unfold relTerm
  have e : (⟨s % 8, Nat.mod_lt _ (by decide)⟩ : Fin 8) = ⟨s' % 8, Nat.mod_lt _ (by decide)⟩ := Fin.ext h
  rw [e]

/-- The relation product the body adds at point `n`, at row `q` of the tile and channel `o`. -/
private theorem rel_block (c : Dev nD) (t : Fin cfg0.N) (q : Fin 2000) (o : Fin 512) (r : Fin 20000)
    (hr : r.val = 2000 * (t.val / 8) + q.val) :
    (∑ k : Fin 512, aggB m c t (ix3 (0 : Fin 1) q k) * wrB m c t (ix3 (0 : Fin 1) o k)) = relTerm m c r o t.val := by
  unfold relTerm
  exact Finset.sum_congr rfl fun k _ => congrArg₂ (· * ·)
    (aggB_apply m c t q k ⟨t.val % 8, Nat.mod_lt _ (by decide)⟩ r rfl hr)
    (wrB_apply m c t o k ⟨t.val % 8, Nat.mod_lt _ (by decide)⟩ rfl)

/-- The self product the body stores at a tile's first point, at row `q` of the tile and channel `o`. -/
private theorem self_block (c : Dev nD) (t : Fin cfg0.N) (q : Fin 2000) (o : Fin 512) (r : Fin 20000)
    (hr : r.val = 2000 * (t.val / 8) + q.val) :
    (∑ k : Fin 512, xB m c t (ix2 q k) * wsB m c t (ix2 o k)) = selfTerm m c r o := by
  unfold selfTerm
  exact Finset.sum_congr rfl fun k _ => congrArg₂ (· * ·) (xB_apply m c t q k r hr) (wsB_apply m c t o k)

/-- At a tile's first point the scratch is set to the self term plus that relation's term. -/
private theorem sc_reset (c : Dev nD) (n : ℕ) (hb : n < cfg0.N) (h0 : n % 8 = 0) (acc : FVec Ideal S2000x512 .f32)
    (q : Fin 2000) (o : Fin 512) (r : Fin 20000) (hr : r.val = 2000 * (n / 8) + q.val) :
    Value.scAt0_0 m c n hb acc (ix2 q o) = selfTerm m c r o + relTerm m c r o n := by
  have h1 : ¬n % 8 = 7 := by omega
  unfold Value.scAt0_0
  rw [dif_pos h0, dif_neg h1, Pieces.sout_A, Pieces.pay2_apply, Pieces.pay1_apply]
  exact congrArg₂ (· + ·) (self_block m c ⟨n, hb⟩ q o r hr) (rel_block m c ⟨n, hb⟩ q o r hr)

/-- At every other point of the tile the point's relation term is added to what the scratch held. -/
private theorem sc_step (c : Dev nD) (n : ℕ) (hb : n < cfg0.N) (h0 : ¬n % 8 = 0) (acc : FVec Ideal S2000x512 .f32)
    (q : Fin 2000) (o : Fin 512) (r : Fin 20000) (hr : r.val = 2000 * (n / 8) + q.val) :
    Value.scAt0_0 m c n hb acc (ix2 q o) = acc (ix2 q o) + relTerm m c r o n := by
  unfold Value.scAt0_0
  by_cases h1 : n % 8 = 7
  · rw [dif_neg h0, dif_pos h1, Pieces.sout_C, Pieces.pay2_apply]
    exact congrArg₂ (· + ·) rfl (rel_block m c ⟨n, hb⟩ q o r hr)
  · rw [dif_neg h0, dif_neg h1, Pieces.sout_B, Pieces.pay2_apply]
    exact congrArg₂ (· + ·) rfl (rel_block m c ⟨n, hb⟩ q o r hr)

/-! ## The scratch after a point: the fold over the tile's relations so far -/

/-- Row `q` of node tile `p`, as a row of the whole arrays. -/
private def tileRow (p : ℕ) (hp : p < 10) (q : Fin 2000) : Fin 20000 := ⟨2000 * p + q.val, by omega⟩

/-- After point `t` the scratch holds, at row `q` of the tile and channel `o`, the self term plus the terms of the
    relations `0 … t % 8`, added in order. -/
private theorem scratch_fold (c : Dev nD) (t : Fin cfg0.N) (q : Fin 2000) (o : Fin 512) (r : Fin 20000)
    (hr : r.val = 2000 * (t.val / 8) + q.val) (j : ℕ) (hj : t.val % 8 = j) :
    (outsAt0 m c t.val t.isLt).2 (ix2 q o) = selfTerm m c r o + ∑ s ∈ Finset.range (j + 1), relTerm m c r o s := by
  subst hj
  have hN : t.val < 80 := lt_of_lt_of_eq t.isLt (show cfg0.N = 80 from N_0)
  have hp : t.val / 8 < 10 := by omega
  rw [Value.soutsAt0_0_eq m c t]
  have key := Pipeline.accAt_add_apply (ι := S2000x512.Idx) (β := EReal)
    (fun n h => Value.scAt0_0 m c n h (VS0_0.read (Elt Ideal) VS0_0.junk)) (Value.scAt0_0 m c)
    (fun i => selfTerm m c (tileRow (t.val / 8) hp (i 0)) (i 1))
    (fun n i => relTerm m c (tileRow (t.val / 8) hp (i 0)) (i 1) n)
    (8 * (t.val / 8)) 7
    (fun h i => by
      obtain ⟨q', o', rfl⟩ : ∃ (q' : Fin 2000) (o' : Fin 512), i = ix2 q' o' := ⟨i 0, i 1, eq_ix2 i⟩
      exact sc_reset m c _ h (by omega) _ q' o' _
        (by show 2000 * (t.val / 8) + q'.val = 2000 * (8 * (t.val / 8) / 8) + q'.val; omega))
    (fun n h acc i hlo hhi => by
      obtain ⟨q', o', rfl⟩ : ∃ (q' : Fin 2000) (o' : Fin 512), i = ix2 q' o' := ⟨i 0, i 1, eq_ix2 i⟩
      exact sc_step m c n h (by omega) acc q' o' _
        (by show 2000 * (t.val / 8) + q'.val = 2000 * (n / 8) + q'.val; omega))
    (t.val % 8) (by omega) (by omega) (ix2 q o)
  refine key.trans ?_
  have er : tileRow (t.val / 8) hp q = r := Fin.ext hr.symm
  show selfTerm m c (tileRow (t.val / 8) hp q) o
      + ∑ s ∈ Finset.range (t.val % 8 + 1), relTerm m c (tileRow (t.val / 8) hp q) o (8 * (t.val / 8) + s) = _
  rw [er]
  exact congrArg₂ (· + ·) rfl (Finset.sum_congr rfl fun s _ => relTerm_congr m c r o _ _ (by omega))

/-! ## What a tile's last point writes back, and the result array -/

/-- What the result array ends holding, as one function of the staged arrays. -/
private def G (c : Dev nD) : FVec Ideal S20000x512 .f32 := fun i =>
  (selfTerm m c (i 0) (i 1) + ∑ s ∈ Finset.range 8, relTerm m c (i 0) (i 1) s) + bA m c (ix2 (0 : Fin 1) (i 1))

/-- A tile's last point writes back its block of `G`: the scratch after relation 6, plus relation 7's term, plus the
    bias row. -/
private theorem flushed_eq (c : Dev nD) (t : Fin cfg0.N) (hf : (cfg0.win 5).flush t = true) :
    (dats m 0 c).flushed 5 t = ((cfg0.win 5).blk t).view.read (Elt Ideal) (G m c) := by
  have h1 : t.val % 8 = 7 := (flush0_5 t).mp hf
  have h0 : ¬t.val % 8 = 0 := by omega
  have hN : t.val < 80 := lt_of_lt_of_eq t.isLt (show cfg0.N = 80 from N_0)
  rw [Value.flushed5_C m c t h0 h1, Pieces.out_C]
  funext j
  obtain ⟨q, o, rfl⟩ : ∃ (q : Fin 2000) (o : Fin 512), j = ix2 q o := ⟨j 0, j 1, eq_ix2 j⟩
  have hr : (⟨2000 * (t.val / 8) + q.val, by omega⟩ : Fin 20000).val = 2000 * (t.val / 8) + q.val := rfl
  generalize (⟨2000 * (t.val / 8) + q.val, by omega⟩ : Fin 20000) = r at hr
  show k0_pay3 (F := Ideal) (k0_pay2 (outsAt0 m c (t.val - 1) (Nat.lt_of_le_of_lt (Nat.sub_le _ _) t.isLt)).2 (aggB m c t) (wrB m c t)) (bB m c t) (ix2 q o)
      = G m c (((cfg0.win 5).blk t).view.emb (ix2 q o))
  rw [emb5 t q o r hr, Pieces.pay3_apply, Pieces.pay2_apply]
  have hfold := scratch_fold m c ⟨t.val - 1, Nat.lt_of_le_of_lt (Nat.sub_le _ _) t.isLt⟩ q o r
    (by show r.val = 2000 * ((t.val - 1) / 8) + q.val; omega) 6 (by show (t.val - 1) % 8 = 6; omega)
  refine (congrArg₂ (· + ·) (congrArg₂ (· + ·) hfold (rel_block m c t q o r hr)) (bB_apply m c t o)).trans ?_
  show (selfTerm m c r o + ∑ s ∈ Finset.range 7, relTerm m c r o s) + relTerm m c r o t.val + bA m c (ix2 (0 : Fin 1) o)
      = (selfTerm m c r o + ∑ s ∈ Finset.range (7 + 1), relTerm m c r o s) + bA m c (ix2 (0 : Fin 1) o)
  rw [Finset.sum_range_succ _ 7, relTerm_congr m c r o t.val 7 (by omega), add_assoc (selfTerm m c r o)]

/-- THE KERNEL'S RESULT at (n, o). -/
theorem kernel_final (c : Dev nD) (n : Fin 20000) (o : Fin 512) :
    outA m c (ix2 n o)
      = ((∑ k : Fin 512, xA m c (ix2 n k) * wsA m c (ix2 o k)) + ∑ s ∈ Finset.range 8, relTerm m c n o s)
        + bA m c (ix2 (0 : Fin 1) o) := by
  have hN : cfg0.N = 80 := N_0
  have hn : n.val < 20000 := n.isLt
  have ht : 8 * (n.val / 2000) + 7 < cfg0.N := by omega
  have hf : (cfg0.win 5).flush ⟨8 * (n.val / 2000) + 7, ht⟩ = true := (flush0_5 _).mpr (by show (8 * (n.val / 2000) + 7) % 8 = 7; omega)
  obtain ⟨-, -, -, -, -, -, -, -, -, -, -, -, e12, e13⟩ := idx_facts ⟨8 * (n.val / 2000) + 7, ht⟩
  have e12' : win0_5.index ⟨8 * (n.val / 2000) + 7, ht⟩ (0 : Fin 2) = (8 * (n.val / 2000) + 7) / 8 := e12
  refine ((dats m 0 c).arrAt_apply_of_mem 5 (G m c) (flushed_eq m c) cfg0.N ⟨8 * (n.val / 2000) + 7, ht⟩ (ix2 n o) ht hf ?_).trans rfl
  show ix2 n o ∈ ((View.whole main_v32).slice (win0_5.rect ⟨8 * (n.val / 2000) + 7, ht⟩)).set
  rw [View.set_slice_whole, Rect.mem_set_unit]
  intro a
  match a with
  | ⟨0, _⟩ =>
    show win0_5.index ⟨8 * (n.val / 2000) + 7, ht⟩ (0 : Fin 2) * 2000 ≤ n.val
      ∧ n.val < win0_5.index ⟨8 * (n.val / 2000) + 7, ht⟩ (0 : Fin 2) * 2000 + 2000
    omega
  | ⟨1, _⟩ =>
    show win0_5.index ⟨8 * (n.val / 2000) + 7, ht⟩ (1 : Fin 2) * 512 ≤ o.val
      ∧ o.val < win0_5.index ⟨8 * (n.val / 2000) + 7, ht⟩ (1 : Fin 2) * 512 + 512
    have := o.isLt
    omega

end Cert.KernelIdeal.Blocks

end
-- ==== Proof.LibScatter.lean ====
/-
  An accumulating host scatter read at an index, at the ideal instance, for any extents: rows `[E, K]` or scalars `[E]`
  added into an accumulator at the rows a column `[E, 1]` of index words names. The index is read signed and not
  clamped; an update whose index falls outside the accumulator is dropped. So entry `s` of the result is the
  accumulator's entry plus the updates of exactly the positions whose word reads `s`.
-/
import Idealize.ShloMosaic.PureOps.Ideal
import Idealize.ShloMosaic.Lib.ValueIdx

noncomputable section

namespace Cert.Rgcn.Indexed

open Idealize.ShloMosaic Idealize.ShloMosaic.ValueIdx

/-- Dimension numbers of `acc.at[idx].add(rows)` for an accumulator `[S, K]`, a column `[E, 1]` of row numbers and
    updates `[E, K]`. -/
abbrev rowsScatter (S K E : Nat) (wf : ScatterDims.WF ⟨2, ![S, K]⟩ ⟨2, ![E, 1]⟩ ⟨2, ![E, K]⟩ [1] [0] [0] 1) :
    ScatterDims ⟨2, ![S, K]⟩ ⟨2, ![E, 1]⟩ ⟨2, ![E, K]⟩ where
  updateWindowDims := [1]
  insertedWindowDims := [0]
  scatterDimsToOperandDims := [0]
  indexVectorDim := 1
  wf := wf

/-- The same with scalar updates: an accumulator `[S]`, a column `[E, 1]`, updates `[E]`. -/
abbrev scalarsScatter (S E : Nat) (wf : ScatterDims.WF ⟨1, ![S]⟩ ⟨2, ![E, 1]⟩ ⟨1, ![E]⟩ [] [0] [0] 1) :
    ScatterDims ⟨1, ![S]⟩ ⟨2, ![E, 1]⟩ ⟨1, ![E]⟩ where
  updateWindowDims := []
  insertedWindowDims := [0]
  scatterDimsToOperandDims := [0]
  indexVectorDim := 1
  wf := wf

/-! ### The row scatter's result index, axis by axis -/

/-- The index word an update row reads: row `j 0` of the column, whatever component is asked (there is one). -/
private theorem rows_siIdx {S K E : Nat} (wf : ScatterDims.WF ⟨2, ![S, K]⟩ ⟨2, ![E, 1]⟩ ⟨2, ![E, K]⟩ [1] [0] [0] 1)
    (j : (⟨2, ![E, K]⟩ : Shape).Idx) (c : Fin (rowsScatter S K E wf).scatterDimsToOperandDims.length) :
    (rowsScatter S K E wf).siIdx j c = ix2 (j 0) (0 : Fin 1) := by
  funext b; refine Fin.ext ?_
  match b with
  | ⟨0, _⟩ => rfl
  | ⟨1, _⟩ =>
    have hc : c.val = 0 := by have := c.isLt; simpa using this
    show c.val = 0
    exact hc

/-- On the accumulator's row axis the window starts at the index word, read signed. -/
private theorem rows_start0 {S K E w : Nat} (wf : ScatterDims.WF ⟨2, ![S, K]⟩ ⟨2, ![E, 1]⟩ ⟨2, ![E, K]⟩ [1] [0] [0] 1)
    (idx : IVec ⟨2, ![E, 1]⟩ w) (j : (⟨2, ![E, K]⟩ : Shape).Idx) :
    (rowsScatter S K E wf).start j idx 0 = (idx (ix2 (j 0) (0 : Fin 1))).toInt := by
  unfold ScatterDims.start
  rw [dif_pos (show (0 : Fin 2) ∈ ([0] : List (Fin 2)) from List.mem_singleton.mpr rfl)]
  rw [rows_siIdx]
  rfl

/-- On the column axis, which the map does not name, the window starts at zero. -/
private theorem rows_start1 {S K E w : Nat} (wf : ScatterDims.WF ⟨2, ![S, K]⟩ ⟨2, ![E, 1]⟩ ⟨2, ![E, K]⟩ [1] [0] [0] 1)
    (idx : IVec ⟨2, ![E, 1]⟩ w) (j : (⟨2, ![E, K]⟩ : Shape).Idx) :
    (rowsScatter S K E wf).start j idx 1 = 0 := by
  unfold ScatterDims.start
  rw [dif_neg (show ¬ (1 : Fin 2) ∈ ([0] : List (Fin 2)) by decide)]

/-- The row axis is inserted: no window coordinate there. -/
private theorem rows_window0 {S K E : Nat} (wf : ScatterDims.WF ⟨2, ![S, K]⟩ ⟨2, ![E, 1]⟩ ⟨2, ![E, K]⟩ [1] [0] [0] 1)
    (j : (⟨2, ![E, K]⟩ : Shape).Idx) :
    (rowsScatter S K E wf).window j 0 = 0 := by
  unfold ScatterDims.window
  have h : ¬ (0 : Fin 2) ∈ (rowsScatter S K E wf).sKept := by
    show ¬ (0 : Fin 2) ∈ (List.finRange 2).filter (· ∉ ([0] : List (Fin 2)))
    decide
  rw [dif_neg h]

/-- The column axis carries the update's column coordinate. -/
private theorem rows_window1 {S K E : Nat} (wf : ScatterDims.WF ⟨2, ![S, K]⟩ ⟨2, ![E, 1]⟩ ⟨2, ![E, K]⟩ [1] [0] [0] 1)
    (j : (⟨2, ![E, K]⟩ : Shape).Idx) :
    (rowsScatter S K E wf).window j 1 = (j 1).val := by
  unfold ScatterDims.window
  have h : (1 : Fin 2) ∈ (rowsScatter S K E wf).sKept := by
    show (1 : Fin 2) ∈ (List.finRange 2).filter (· ∉ ([0] : List (Fin 2)))
    decide
  rw [dif_pos h]
  rfl

/-- Update position `j = (e, k')` lands at `(s, k)` exactly when its index word reads `s` and `k' = k`: the word is
    not clamped, so a word outside `[0, S)` lands nowhere, and the column coordinate is always inside. -/
private theorem rows_resultIdx_iff {S K E w : Nat} (wf : ScatterDims.WF ⟨2, ![S, K]⟩ ⟨2, ![E, 1]⟩ ⟨2, ![E, K]⟩ [1] [0] [0] 1)
    (idx : IVec ⟨2, ![E, 1]⟩ w) (j : (⟨2, ![E, K]⟩ : Shape).Idx) (s : Fin S) (k : Fin K) :
    (rowsScatter S K E wf).resultIdx? j idx = some (ix2 s k) ↔
      (idx (ix2 (j 0) (0 : Fin 1))).toInt = (s.val : ℤ) ∧ j 1 = k := by
  have hs0 := rows_start0 wf idx j
  have hs1 := rows_start1 wf idx j
  have hw0 := rows_window0 wf j
  have hw1 := rows_window1 wf j
  have hsl := s.isLt
  have hjl := idx2_lt1 j
  unfold ScatterDims.resultIdx?
  split
  · rename_i h
    constructor
    · intro he
      have he' := Option.some.inj he
      have h0 : ((rowsScatter S K E wf).start j idx 0 + (rowsScatter S K E wf).window j 0).toNat = s.val :=
        congrArg Fin.val (congrFun he' 0)
      have h1 : ((rowsScatter S K E wf).start j idx 1 + (rowsScatter S K E wf).window j 1).toNat = k.val :=
        congrArg Fin.val (congrFun he' 1)
      have g0 := (h 0).1
      rw [hs0, hw0] at h0 g0
      rw [hs1, hw1] at h1
      exact ⟨by omega, Fin.ext (by omega)⟩
    · rintro ⟨ht, hk⟩
      congr 1
      funext a
      refine Fin.ext ?_
      match a with
      | ⟨0, _⟩ =>
        show ((rowsScatter S K E wf).start j idx 0 + (rowsScatter S K E wf).window j 0).toNat = s.val
        rw [hs0, hw0, ht]; omega
      | ⟨1, _⟩ =>
        show ((rowsScatter S K E wf).start j idx 1 + (rowsScatter S K E wf).window j 1).toNat = k.val
        rw [hs1, hw1, ← hk]; omega
  · rename_i h
    constructor
    · intro he; cases he
    · rintro ⟨ht, hk⟩
      exfalso; apply h
      intro a
      match a with
      | ⟨0, _⟩ =>
        show 0 ≤ (rowsScatter S K E wf).start j idx 0 + (rowsScatter S K E wf).window j 0 ∧
          (rowsScatter S K E wf).start j idx 0 + (rowsScatter S K E wf).window j 0 < (S : ℤ)
        rw [hs0, hw0, ht]; constructor <;> omega
      | ⟨1, _⟩ =>
        show 0 ≤ (rowsScatter S K E wf).start j idx 1 + (rowsScatter S K E wf).window j 1 ∧
          (rowsScatter S K E wf).start j idx 1 + (rowsScatter S K E wf).window j 1 < (K : ℤ)
        rw [hs1, hw1]; constructor <;> omega

/-- The accumulating row scatter at `(s, k)`, at the ideal instance: the accumulator's entry plus column `k` of every
    update row whose index word reads `s`. -/
theorem scatterAdd_rows_apply {S K E w : Nat}
    (wf : ScatterDims.WF ⟨2, ![S, K]⟩ ⟨2, ![E, 1]⟩ ⟨2, ![E, K]⟩ [1] [0] [0] 1)
    (x : (⟨2, ![S, K]⟩ : Shape).Idx → EReal) (idx : IVec ⟨2, ![E, 1]⟩ w) (upd : (⟨2, ![E, K]⟩ : Shape).Idx → EReal)
    (s : Fin S) (k : Fin K) :
    Ideal.hostScatterAdd (rowsScatter S K E wf) x idx upd (ix2 s k)
      = x (ix2 s k) + ∑ e ∈ Finset.univ.filter (fun e : Fin E => (idx (ix2 e (0 : Fin 1))).toInt = (s.val : ℤ)), upd (ix2 e k) := by
  unfold Ideal.hostScatterAdd
  congr 1
  have key : ∀ (e : Fin E) (b : Fin K), (rowsScatter S K E wf).resultIdx? (ix2 e b) idx = some (ix2 s k) ↔
      ((idx (ix2 e (0 : Fin 1))).toInt = (s.val : ℤ) ∧ b = k) :=
    fun e b => rows_resultIdx_iff wf idx (ix2 e b) s k
  rw [Finset.sum_filter, Finset.sum_filter, sum_idx2]
  refine Finset.sum_congr rfl fun e _ => ?_
  simp only [key]
  by_cases ht : (idx (ix2 e (0 : Fin 1))).toInt = (s.val : ℤ)
  · simp [ht]
  · simp [ht]

/-! ### The scalar scatter's result index, and a sum over a rank-1 index set -/

/-- The index word update position `j` reads: row `j 0` of the column. -/
private theorem scalars_siIdx {S E : Nat} (wf : ScatterDims.WF ⟨1, ![S]⟩ ⟨2, ![E, 1]⟩ ⟨1, ![E]⟩ [] [0] [0] 1)
    (j : (⟨1, ![E]⟩ : Shape).Idx) (c : Fin (scalarsScatter S E wf).scatterDimsToOperandDims.length) :
    (scalarsScatter S E wf).siIdx j c = ix2 (j 0) (0 : Fin 1) := by
  funext b; refine Fin.ext ?_
  match b with
  | ⟨0, _⟩ => rfl
  | ⟨1, _⟩ =>
    have hc : c.val = 0 := by have := c.isLt; simpa using this
    show c.val = 0
    exact hc

/-- On the accumulator's one axis the window starts at the index word, read signed. -/
private theorem scalars_start0 {S E w : Nat} (wf : ScatterDims.WF ⟨1, ![S]⟩ ⟨2, ![E, 1]⟩ ⟨1, ![E]⟩ [] [0] [0] 1)
    (idx : IVec ⟨2, ![E, 1]⟩ w) (j : (⟨1, ![E]⟩ : Shape).Idx) :
    (scalarsScatter S E wf).start j idx 0 = (idx (ix2 (j 0) (0 : Fin 1))).toInt := by
  unfold ScatterDims.start
  rw [dif_pos (show (0 : Fin 1) ∈ ([0] : List (Fin 1)) from List.mem_singleton.mpr rfl)]
  rw [scalars_siIdx]
  rfl

/-- That axis is inserted: no window coordinate. -/
private theorem scalars_window0 {S E : Nat} (wf : ScatterDims.WF ⟨1, ![S]⟩ ⟨2, ![E, 1]⟩ ⟨1, ![E]⟩ [] [0] [0] 1)
    (j : (⟨1, ![E]⟩ : Shape).Idx) :
    (scalarsScatter S E wf).window j 0 = 0 := by
  unfold ScatterDims.window
  have h : ¬ (0 : Fin 1) ∈ (scalarsScatter S E wf).sKept := by
    show ¬ (0 : Fin 1) ∈ (List.finRange 1).filter (· ∉ ([0] : List (Fin 1)))
    decide
  rw [dif_neg h]

/-- Update position `j` lands at `s` exactly when its index word reads `s`; a word outside `[0, S)` lands nowhere. -/
private theorem scalars_resultIdx_iff {S E w : Nat} (wf : ScatterDims.WF ⟨1, ![S]⟩ ⟨2, ![E, 1]⟩ ⟨1, ![E]⟩ [] [0] [0] 1)
    (idx : IVec ⟨2, ![E, 1]⟩ w) (j : (⟨1, ![E]⟩ : Shape).Idx) (s : Fin S) :
    (scalarsScatter S E wf).resultIdx? j idx = some (ix1 s) ↔ (idx (ix2 (j 0) (0 : Fin 1))).toInt = (s.val : ℤ) := by
  have hs0 := scalars_start0 wf idx j
  have hw0 := scalars_window0 wf j
  have hsl := s.isLt
  unfold ScatterDims.resultIdx?
  split
  · rename_i h
    constructor
    · intro he
      have he' := Option.some.inj he
      have h0 : ((scalarsScatter S E wf).start j idx 0 + (scalarsScatter S E wf).window j 0).toNat = s.val :=
        congrArg Fin.val (congrFun he' 0)
      have g0 := (h 0).1
      rw [hs0, hw0] at h0 g0
      omega
    · intro ht
      congr 1
      funext a
      refine Fin.ext ?_
      match a with
      | ⟨0, _⟩ =>
        show ((scalarsScatter S E wf).start j idx 0 + (scalarsScatter S E wf).window j 0).toNat = s.val
        rw [hs0, hw0, ht]; omega
  · rename_i h
    constructor
    · intro he; cases he
    · intro ht
      exfalso; apply h
      intro a
      match a with
      | ⟨0, _⟩ =>
        show 0 ≤ (scalarsScatter S E wf).start j idx 0 + (scalarsScatter S E wf).window j 0 ∧
          (scalarsScatter S E wf).start j idx 0 + (scalarsScatter S E wf).window j 0 < (S : ℤ)
        rw [hs0, hw0, ht]; constructor <;> omega

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The accumulating scalar scatter at `s`, at the ideal instance: the accumulator's entry plus every update whose index
    word reads `s`. -/
theorem scatterAdd_scalars_apply {S E w : Nat}
    (wf : ScatterDims.WF ⟨1, ![S]⟩ ⟨2, ![E, 1]⟩ ⟨1, ![E]⟩ [] [0] [0] 1)
    (x : (⟨1, ![S]⟩ : Shape).Idx → EReal) (idx : IVec ⟨2, ![E, 1]⟩ w) (upd : (⟨1, ![E]⟩ : Shape).Idx → EReal)
    (s : Fin S) :
    Ideal.hostScatterAdd (scalarsScatter S E wf) x idx upd (ix1 s)
      = x (ix1 s) + ∑ e ∈ Finset.univ.filter (fun e : Fin E => (idx (ix2 e (0 : Fin 1))).toInt = (s.val : ℤ)), upd (ix1 e) := by
  unfold Ideal.hostScatterAdd
  congr 1
  have key : ∀ e : Fin E, (scalarsScatter S E wf).resultIdx? (ix1 e) idx = some (ix1 s) ↔
      (idx (ix2 e (0 : Fin 1))).toInt = (s.val : ℤ) :=
    fun e => scalars_resultIdx_iff wf idx (ix1 e) s
  rw [Finset.sum_filter, Finset.sum_filter, sum_idx1]
  refine Finset.sum_congr rfl fun e _ => ?_
  simp only [key]

end Cert.Rgcn.Indexed

end
-- ==== Proof.LibIndexed.lean ====
/-
  A host gather that takes whole rows of a table, read at an index, for any extents and any element type: by one
  start-index component out of a table `[N, K]`, or by two out of a table `[R, N, K]`. Each component is read signed and
  clamped into its own axis of the table. (The accumulating scatters this certificate also reads are in LibScatter.)
-/
import Idealize.ShloMosaic.PureOps.Ideal
import Idealize.ShloMosaic.Lib.ValueIdx
import proofs.«419077_j11003706212538_1_alg».proof.Proof.LibScatter

noncomputable section

namespace Cert.Rgcn.Indexed

open Idealize.ShloMosaic Idealize.ShloMosaic.ValueIdx

/-- Dimension numbers of `table[idx]` for a table `[N, K]` and a column `[E, 1]` of row numbers: row `e` of the
    result is the table's row `idx[e, 0]`. -/
abbrev rowsGather (N K E : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- Dimension numbers of `table[a, b]` for a table `[R, N, K]` and two columns `[E, 2]` of coordinates: row `e` of the
    result is the table's row at `(idx[e, 0], idx[e, 1])`. -/
abbrev rows2Gather (R N K E : Nat)
    (wf : GatherDims.WF ⟨3, ![R, N, K]⟩ ⟨2, ![E, 2]⟩ ⟨2, ![E, K]⟩ [1] [0, 1] [] [0, 1] [] 1 ![1, 1, K]) :
    GatherDims ⟨3, ![R, N, K]⟩ ⟨2, ![E, 2]⟩ ⟨2, ![E, K]⟩ where
  offsetDims := [1]
  collapsedSliceDims := [0, 1]
  operandBatchingDims := []
  startIndicesBatchingDims := []
  startIndexMap := [0, 1]
  indexVectorDim := 1
  sliceSizes := ![1, 1, K]
  wf := wf

/-- The row gather at `(e, k)`: the table at row `idx[e, 0]`, read signed and clamped into `[0, N - 1]`, column `k`. -/
theorem gather_rows_apply {α : Type} {N K E w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (k : Fin K) :
    Host.gather (rowsGather N K E wf) x idx (ix2 e k)
      = x (ix2 (⟨min (idx (ix2 e (0 : Fin 1))).toInt.toNat (N - 1), by omega⟩ : Fin N) k) := by
  -- Read the operand index axis by axis: the collapsed axis carries the clamped start index (slice size 1, so the
  -- clamp bound is `N - 1`), the offset axis carries the result's column coordinate.
  unfold Host.gather
  congr 1
  funext a
  refine Fin.ext ?_
  match a with
  | ⟨0, h0⟩ =>
    show (rowsGather N K E wf).start (ix2 e k) idx ⟨0, h0⟩ + (rowsGather N K E wf).batchCoord (ix2 e k) ⟨0, h0⟩
      + (rowsGather N K E wf).offCoord (ix2 e k) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowsGather N K E wf).startIndexMap from List.mem_singleton.mpr rfl)]
    have hsi : (rowsGather N K E wf).siIdx (ix2 e k) ⟨List.idxOf (⟨0, h0⟩ : Fin 2) (rowsGather N K E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, h1⟩ =>
    show (rowsGather N K E wf).start (ix2 e k) idx ⟨1, h1⟩ + (rowsGather N K E wf).batchCoord (ix2 e k) ⟨1, h1⟩
      + (rowsGather N K E wf).offCoord (ix2 e k) ⟨1, h1⟩ = _
    rw [GatherDims.batchCoord_eq_zero _ _ _ List.not_mem_nil]
    unfold GatherDims.start
    have hne : (⟨1, h1⟩ : Fin 2) ∉ [(⟨0, Nat.zero_lt_two⟩ : Fin 2)] := fun h =>
      absurd (congrArg Fin.val (List.mem_singleton.mp h)) Nat.one_ne_zero
    rw [dif_neg (show (⟨1, h1⟩ : Fin 2) ∉ (rowsGather N K E wf).startIndexMap from hne)]
    unfold GatherDims.offCoord
    rw [dif_pos (show (⟨1, h1⟩ : Fin 2) ∈ (rowsGather N K E wf).sKept from
      (GatherDims.mem_sKept _ _).mpr ⟨hne, List.not_mem_nil⟩)]
    rw [Nat.zero_add]
    rfl

/-- The two-coordinate row gather at `(e, k)`: each coordinate read signed and clamped into its own axis. -/
theorem gather_rows2_apply {α : Type} {R N K E w : Nat} (hR : 0 < R) (hN : 0 < N)
    (wf : GatherDims.WF ⟨3, ![R, N, K]⟩ ⟨2, ![E, 2]⟩ ⟨2, ![E, K]⟩ [1] [0, 1] [] [0, 1] [] 1 ![1, 1, K])
    (x : (⟨3, ![R, N, K]⟩ : Shape).Idx → α) (idx : IVec ⟨2, ![E, 2]⟩ w) (e : Fin E) (k : Fin K) :
    Host.gather (rows2Gather R N K E wf) x idx (ix2 e k)
      = x (ix3 (⟨min (idx (ix2 e (0 : Fin 2))).toInt.toNat (R - 1), by omega⟩ : Fin R)
            (⟨min (idx (ix2 e (1 : Fin 2))).toInt.toNat (N - 1), by omega⟩ : Fin N) k) := by
  -- Axis by axis again: the two collapsed axes carry the two clamped start-index components (bounds `R - 1` and
  -- `N - 1`), the offset axis carries the result's column coordinate.
  unfold Host.gather
  congr 1
  funext a
  refine Fin.ext ?_
  match a with
  | ⟨0, h0⟩ =>
    have hmem : (⟨0, h0⟩ : Fin 3) ∈ [(⟨0, by decide⟩ : Fin 3), ⟨1, by decide⟩] := List.mem_cons.mpr (Or.inl rfl)
    show (rows2Gather R N K E wf).start (ix2 e k) idx ⟨0, h0⟩ + (rows2Gather R N K E wf).batchCoord (ix2 e k) ⟨0, h0⟩
      + (rows2Gather R N K E wf).offCoord (ix2 e k) ⟨0, h0⟩ = _
    rw [GatherDims.batchCoord_eq_zero _ _ _ List.not_mem_nil,
      GatherDims.offCoord_eq_zero _ _ _ (fun h => ((GatherDims.mem_sKept _ _).mp h).1 hmem)]
    simp only [Nat.add_zero]
    unfold GatherDims.start
    rw [dif_pos (show (⟨0, h0⟩ : Fin 3) ∈ (rows2Gather R N K E wf).startIndexMap from hmem)]
    have hsi : (rows2Gather R N K E wf).siIdx (ix2 e k) ⟨List.idxOf (⟨0, h0⟩ : Fin 3) (rows2Gather R N K E wf).startIndexMap,
        List.idxOf_lt_length_iff.2 hmem⟩ = ix2 e (0 : Fin 2) := by
      funext b; refine Fin.ext ?_
      match b with
      | ⟨0, _⟩ => rfl
      | ⟨1, _⟩ => rfl
    rw [hsi]
    rfl
  | ⟨1, h1⟩ =>
    have hmem : (⟨1, h1⟩ : Fin 3) ∈ [(⟨0, by decide⟩ : Fin 3), ⟨1, by decide⟩] :=
      List.mem_cons.mpr (Or.inr (List.mem_singleton.mpr rfl))
    show (rows2Gather R N K E wf).start (ix2 e k) idx ⟨1, h1⟩ + (rows2Gather R N K E wf).batchCoord (ix2 e k) ⟨1, h1⟩
      + (rows2Gather R N K E wf).offCoord (ix2 e k) ⟨1, h1⟩ = _
    rw [GatherDims.batchCoord_eq_zero _ _ _ List.not_mem_nil,
      GatherDims.offCoord_eq_zero _ _ _ (fun h => ((GatherDims.mem_sKept _ _).mp h).1 hmem)]
    simp only [Nat.add_zero]
    unfold GatherDims.start
    rw [dif_pos (show (⟨1, h1⟩ : Fin 3) ∈ (rows2Gather R N K E wf).startIndexMap from hmem)]
    have hsi : (rows2Gather R N K E wf).siIdx (ix2 e k) ⟨List.idxOf (⟨1, h1⟩ : Fin 3) (rows2Gather R N K E wf).startIndexMap,
        List.idxOf_lt_length_iff.2 hmem⟩ = ix2 e (1 : Fin 2) := by
      funext b; refine Fin.ext ?_
      match b with
      | ⟨0, _⟩ => rfl
      | ⟨1, _⟩ => rfl
    rw [hsi]
    rfl
  | ⟨2, h2⟩ =>
    have hne : (⟨2, h2⟩ : Fin 3) ∉ [(⟨0, by decide⟩ : Fin 3), ⟨1, by decide⟩] := fun h => by
      rcases List.mem_cons.mp h with h | h
      · exact absurd (congrArg Fin.val h) (Nat.succ_ne_zero 1)
      · exact absurd (congrArg Fin.val (List.mem_singleton.mp h)) (Nat.succ_ne_succ.mpr Nat.one_ne_zero)
    show (rows2Gather R N K E wf).start (ix2 e k) idx ⟨2, h2⟩ + (rows2Gather R N K E wf).batchCoord (ix2 e k) ⟨2, h2⟩
      + (rows2Gather R N K E wf).offCoord (ix2 e k) ⟨2, h2⟩ = _
    rw [GatherDims.batchCoord_eq_zero _ _ _ List.not_mem_nil]
    unfold GatherDims.start
    rw [dif_neg (show (⟨2, h2⟩ : Fin 3) ∉ (rows2Gather R N K E wf).startIndexMap from hne)]
    unfold GatherDims.offCoord
    rw [dif_pos (show (⟨2, h2⟩ : Fin 3) ∈ (rows2Gather R N K E wf).sKept from
      (GatherDims.mem_sKept _ _).mpr ⟨hne, List.not_mem_nil⟩)]
    rw [Nat.zero_add]
    rfl

end Cert.Rgcn.Indexed

end
-- ==== Proof.KernelHost.lean ====
/-
  The five arrays the kernel's windows stage, entry by entry, as functions of the launched arguments: what the forty
  host operations before the pallas_call leave in them. Four are the arguments themselves up to a change of float
  format (the identity here) or a reshape. The fifth holds, for relation r and node n, the average of the gathered
  feature rows of the edges in flat bucket r * 20000 + n: their sum accumulated from zero, over the bucket's divisor.
-/
import proofs.«419077_j11003706212538_1_alg».proof.Proof.KernelArrays
import proofs.«419077_j11003706212538_1_alg».proof.Proof.LibIndexed
import Idealize.ShloMosaic.Lib.Pipeline.Value
import Idealize.ShloMosaic.Lib.ValueLayout
import Idealize.ShloMosaic.Lib.StableHlo.Run

noncomputable section

namespace Cert.KernelIdeal.HostSide

open Cert.KernelIdeal Cert.KernelIdeal.Gen Cert.KernelIdeal.Arr Idealize.ShloMosaic Idealize.ShloMosaic.TcCoe Idealize.SL.Sem
open Idealize.ShloMosaic.ValueIdx Cert.Rgcn

variable (m : (ℓ : Loc nD τ sig) → Buf (Elt Ideal) ℓ)

/-- What the host operations leave in the staged node features: the argument, converted. -/
private theorem xA_eq (c : Dev nD) :
    (V m c main_v28 : S20000x512.Idx → EReal) = truncf .bf16 (xArg m c) bitsLt_bf16_f32 := by
  dsimp only [Gen.V, Gen.hostOps0]; after_results

private theorem wsA_eq (c : Dev nD) :
    (V m c main_v29 : S512x512.Idx → EReal) = truncf .bf16 (wsArg m c) bitsLt_bf16_f32 := by
  dsimp only [Gen.V, Gen.hostOps0]; after_results

private theorem wrA_eq (c : Dev nD) :
    (V m c main_v30 : S8x512x512.Idx → EReal) = truncf .bf16 (wrArg m c) bitsLt_bf16_f32 := by
  dsimp only [Gen.V, Gen.hostOps0]; after_results

private theorem bA_eq (c : Dev nD) :
    (V m c main_v31 : S1x512.Idx → EReal) = shapeCast S1x512 (bArg m c) shapeCasts_S512_S1x512 := by
  dsimp only [Gen.V, Gen.hostOps0]; after_results; rfl

/-- The staged node features are the argument's. -/
theorem xA_apply (c : Dev nD) (n : Fin 20000) (k : Fin 512) : xA m c (ix2 n k) = xArg m c (ix2 n k) := by
  show (V m c main_v28 : S20000x512.Idx → EReal) (ix2 n k) = _
  rw [xA_eq m c]
  rfl

/-- The staged self weight is the argument's. -/
theorem wsA_apply (c : Dev nD) (o : Fin 512) (k : Fin 512) : wsA m c (ix2 o k) = wsArg m c (ix2 o k) := by
  show (V m c main_v29 : S512x512.Idx → EReal) (ix2 o k) = _
  rw [wsA_eq m c]
  rfl

/-- The staged relation weights are the argument's. -/
theorem wrA_apply (c : Dev nD) (r : Fin 8) (o : Fin 512) (k : Fin 512) : wrA m c (ix3 r o k) = wrArg m c (ix3 r o k) := by
  show (V m c main_v30 : S8x512x512.Idx → EReal) (ix3 r o k) = _
  rw [wrA_eq m c]
  rfl

/-- The staged bias row is the argument, laid out as one row. -/
theorem bA_apply (c : Dev nD) (o : Fin 512) : bA m c (ix2 (0 : Fin 1) o) = bArg m c (ix1 o) := by
  show (V m c main_v31 : S1x512.Idx → EReal) (ix2 (0 : Fin 1) o) = _
  rw [bA_eq m c]
  generalize bArg m c = y
  refine shapeCast_apply y shapeCasts_S512_S1x512 (ix2 (0 : Fin 1) o) (ix1 o) ?_
  rewrite [Shape.rowMajor_val_one, Shape.rowMajor_val_two]
  show o.val = (0 : Fin 1).val * 512 + o.val
  simp

/-! The words and floats the host operations compute on the way to the bucket averages, each kept as one named
    stage so that a stage is read at an entry without opening the stages under it. -/

/-- The source words of the edges: row 0 of `edge_index`, flat. -/
private def srcV (ei : IVec SEi 32) : IVec S320000 32 :=
  shapeCast S320000 (extractStridedSlice S1x320000 ![0, 0] ei slices_S2x320000_S1x320000_0_0) shapeCasts_S1x320000_S320000

/-- The destination words of the edges: row 1 of `edge_index`, flat. -/
private def dstV (ei : IVec SEi 32) : IVec S320000 32 :=
  shapeCast S320000 (extractStridedSlice S1x320000 ![1, 0] ei slices_S2x320000_S1x320000_1_0) shapeCasts_S1x320000_S320000

/-- The flat bucket words: relation times node count plus destination. -/
private def segV (ei : IVec SEi 32) (et : IVec SEt 32) : IVec S320000 32 :=
  addi (muli et (broadcastInDim S320000 ![] bcast_S_S320000 (constantI S_ 32 20000#32))) (dstV ei)

/-- The source words as the gather sees them: a negative word shifted up by the node count. -/
private def srcNV (ei : IVec SEi 32) : IVec S320000 32 :=
  select (cmpi .slt (srcV ei) (broadcastInDim S320000 ![] bcast_S_S320000 (constantI S_ 32 0#32)))
    (addi (srcV ei) (broadcastInDim S320000 ![] bcast_S_S320000 (constantI S_ 32 20000#32))) (srcV ei)

/-- A vector of words as one column. -/
private def col (v : IVec S320000 32) : IVec S320000x1 32 :=
  broadcastInDim S320000x1 ![0] bcast_S320000_S320000x1_0 v

/-- The gathered feature rows, one per edge. -/
private def gath (x : FVec Ideal SX .f32) (ei : IVec SEi 32) : FVec Ideal S320000x512 .f32 :=
  Host.gather gather_S20000x512_S320000x1_S320000x512_1_0_n_n_0_1_1512 x (col (srcNV ei))

/-- The bucket sums: the gathered rows accumulated from zero into their flat buckets. -/
private def sums (x : FVec Ideal SX .f32) (ei : IVec SEi 32) (et : IVec SEt 32) : FVec Ideal S160000x512 .f32 :=
  Host.scatterAdd scatter_S160000x512_S320000x1_S320000x512_1_0_0_1
    (broadcastInDim S160000x512 ![] bcast_S_S160000x512 (constant (F := Ideal) S_ .f32 0x00000000#32))
    (col (segV ei et)) (gath x ei)

/-- The bucket divisors: ones accumulated from zero into the flat buckets, clamped below at one. -/
private def cnts (ei : IVec SEi 32) (et : IVec SEt 32) : FVec Ideal S160000 .f32 :=
  maximumf
    (Host.scatterAdd scatter_S160000_S320000x1_S320000_n_0_0_1
      (broadcastInDim S160000 ![] bcast_S_S160000 (constant (F := Ideal) S_ .f32 0x00000000#32))
      (col (segV ei et))
      (broadcastInDim S320000 ![] bcast_S_S320000 (constant (F := Ideal) S_ .f32 0x3F800000#32)))
    (broadcastInDim S160000 ![] bcast_S_S160000 (constant (F := Ideal) S_ .f32 0x3F800000#32))

/-- The bucket averages, per relation and node. -/
private def aggT (x : FVec Ideal SX .f32) (ei : IVec SEi 32) (et : IVec SEt 32) : FVec Ideal S8x20000x512 .bf16 :=
  truncf .bf16
    (Host.divf (F := Ideal) (shapeCast S8x20000x512 (sums x ei et) shapeCasts_S160000x512_S8x20000x512)
      (broadcastInDim S8x20000x512 ![0, 1, 2] bcast_S8x20000x1_S8x20000x512_0_1_2
        (shapeCast S8x20000x1 (cnts ei et) shapeCasts_S160000_S8x20000x1)))
    bitsLt_bf16_f32

/-- What the host operations leave in the staged bucket averages. -/
private theorem aggA_eq (c : Dev nD) :
    (V m c main_v27 : S8x20000x512.Idx → EReal) = aggT (xArg m c) (eiArg m c) (etArg m c) := by
  dsimp only [Gen.V, Gen.hostOps0]; after_results_simp; rfl

/-- A column read at row `e` is the vector at `e`. -/
private theorem col_apply (v : IVec S320000 32) (e : Fin 320000) : col v (ix2 e (0 : Fin 1)) = v (ix1 e) := by
  unfold col
  exact broadcastInDim_apply _ bcast_S320000_S320000x1_0 v (ix2 e (0 : Fin 1)) (ix1 e) (fun a => match a with
    | ⟨0, _⟩ => by show e.val = if (320000 : Nat) = 1 then 0 else e.val; rw [if_neg (by decide)])

private theorem srcV_apply (ei : IVec SEi 32) (e : Fin 320000) : srcV ei (ix1 e) = srcW ei e := by
  unfold srcV srcW
  generalize hy : extractStridedSlice S1x320000 ![0, 0] ei slices_S2x320000_S1x320000_0_0 = y
  rw [shapeCast_apply y shapeCasts_S1x320000_S320000 (ix1 e) (ix2 (0 : Fin 1) e)
    (by rewrite [Shape.rowMajor_val_two, Shape.rowMajor_val_one]; show (0 : Fin 1).val * 320000 + e.val = e.val; simp)]
  subst hy
  exact extractStridedSlice_apply ![0, 0] ei slices_S2x320000_S1x320000_0_0 (ix2 (0 : Fin 1) e) (ix2 (0 : Fin 2) e) (fun a => match a with
    | ⟨0, _⟩ => by show (0 : Fin 2).val = 0 + (0 : Fin 1).val; rfl
    | ⟨1, _⟩ => by show e.val = 0 + e.val; omega)

private theorem dstV_apply (ei : IVec SEi 32) (e : Fin 320000) : dstV ei (ix1 e) = dstW ei e := by
  unfold dstV dstW
  generalize hy : extractStridedSlice S1x320000 ![1, 0] ei slices_S2x320000_S1x320000_1_0 = y
  rw [shapeCast_apply y shapeCasts_S1x320000_S320000 (ix1 e) (ix2 (0 : Fin 1) e)
    (by rewrite [Shape.rowMajor_val_two, Shape.rowMajor_val_one]; show (0 : Fin 1).val * 320000 + e.val = e.val; simp)]
  subst hy
  exact extractStridedSlice_apply ![1, 0] ei slices_S2x320000_S1x320000_1_0 (ix2 (0 : Fin 1) e) (ix2 (1 : Fin 2) e) (fun a => match a with
    | ⟨0, _⟩ => by show (1 : Fin 2).val = 1 + (0 : Fin 1).val; rfl
    | ⟨1, _⟩ => by show e.val = 0 + e.val; omega)

private theorem segV_apply (ei : IVec SEi 32) (et : IVec SEt 32) (e : Fin 320000) : segV ei et (ix1 e) = segW ei et e := by
  unfold segV segW
  show IntOp.addi (IntOp.muli (et (ix1 e)) 20000#32) (dstV ei (ix1 e)) = IntOp.addi (IntOp.muli (relW et e) 20000#32) (dstW ei e)
  rw [dstV_apply]
  rfl

private theorem srcNV_apply (ei : IVec SEi 32) (e : Fin 320000) : srcNV ei (ix1 e) = srcN ei e := by
  unfold srcNV srcN
  show Scalar.select (IntOp.cmpi .slt (srcV ei (ix1 e)) 0#32) (IntOp.addi (srcV ei (ix1 e)) 20000#32) (srcV ei (ix1 e)) = _
  rw [srcV_apply]

/-- A gathered row is the feature row the edge's source names. -/
private theorem gath_apply (x : FVec Ideal SX .f32) (ei : IVec SEi 32) (e : Fin 320000) (k : Fin 512) :
    gath x ei (ix2 e k) = x (ix2 (rowOf ei e) k) := by
  unfold gath
  generalize hi : col (srcNV ei) = idx
  show Host.gather (Cert.Rgcn.Indexed.rowsGather 20000 512 320000 _) x idx (ix2 e k) = _
  rw [Cert.Rgcn.Indexed.gather_rows_apply (by decide)]
  refine congrArg (fun r => x (ix2 r k)) (Fin.ext ?_)
  subst hi
  show min (col (srcNV ei) (ix2 e (0 : Fin 1))).toInt.toNat (20000 - 1) = min (srcN ei e).toInt.toNat 19999
  rw [col_apply, srcNV_apply]

/-- The edges whose column word reads `s` are bucket `s`. -/
private theorem filter_col_eq (ei : IVec SEi 32) (et : IVec SEt 32) (s : Fin 160000) :
    (Finset.univ.filter fun e : Fin 320000 => (col (segV ei et) (ix2 e (0 : Fin 1))).toInt = (s.val : ℤ))
      = bucket ei et s.val := by
  unfold bucket
  refine Finset.filter_congr (fun e _ => ?_)
  rw [col_apply, segV_apply]

/-- A bucket sum: zero plus the feature rows the bucket's edges name. -/
private theorem sums_apply (x : FVec Ideal SX .f32) (ei : IVec SEi 32) (et : IVec SEt 32) (s : Fin 160000) (k : Fin 512) :
    sums x ei et (ix2 s k) = fzero + ∑ e ∈ bucket ei et s.val, x (ix2 (rowOf ei e) k) := by
  unfold sums
  generalize hi : col (segV ei et) = idx
  generalize hu : gath x ei = upd
  show Ideal.hostScatterAdd (Cert.Rgcn.Indexed.rowsScatter 160000 512 320000 _) _ idx upd (ix2 s k) = _
  rw [Cert.Rgcn.Indexed.scatterAdd_rows_apply]
  subst hi hu
  rw [filter_col_eq]
  exact congrArg₂ (· + ·) rfl (Finset.sum_congr rfl fun e _ => gath_apply x ei e k)

/-- A bucket divisor. -/
private theorem cnts_apply (ei : IVec SEi 32) (et : IVec SEt 32) (s : Fin 160000) :
    cnts ei et (ix1 s) = cntOf ei et s.val := by
  unfold cnts cntOf
  generalize hi : col (segV ei et) = idx
  show max (Ideal.hostScatterAdd (Cert.Rgcn.Indexed.scalarsScatter 160000 320000 _) _ idx _ (ix1 s)) fone = _
  rw [Cert.Rgcn.Indexed.scatterAdd_scalars_apply]
  subst hi
  rw [filter_col_eq]
  rfl

/-- A bucket average at relation `r`, node `n`, channel `k`: the sum of flat bucket `r * 20000 + n` over its divisor. -/
private theorem aggT_apply (x : FVec Ideal SX .f32) (ei : IVec SEi 32) (et : IVec SEt 32)
    (r : Fin 8) (n : Fin 20000) (k : Fin 512) (h : r.val * 20000 + n.val < 160000) :
    aggT x ei et (ix3 r n k)
      = Ideal.div (sums x ei et (ix2 (⟨r.val * 20000 + n.val, h⟩ : Fin 160000) k))
          (cnts ei et (ix1 (⟨r.val * 20000 + n.val, h⟩ : Fin 160000))) := by
  unfold aggT
  generalize sums x ei et = y
  generalize cnts ei et = z
  show Ideal.div (shapeCast S8x20000x512 y shapeCasts_S160000x512_S8x20000x512 (ix3 r n k))
      (broadcastInDim S8x20000x512 ![0, 1, 2] bcast_S8x20000x1_S8x20000x512_0_1_2
        (shapeCast S8x20000x1 z shapeCasts_S160000_S8x20000x1) (ix3 r n k)) = _
  rw [shapeCast_apply y shapeCasts_S160000x512_S8x20000x512 (ix3 r n k) (ix2 (⟨r.val * 20000 + n.val, h⟩ : Fin 160000) k)
    (by rewrite [Shape.rowMajor_val_two, Shape.rowMajor_val_three]
        show (r.val * 20000 + n.val) * 512 + k.val = (r.val * 20000 + n.val) * 512 + k.val; rfl)]
  rw [broadcastInDim_apply _ bcast_S8x20000x1_S8x20000x512_0_1_2 (shapeCast S8x20000x1 z shapeCasts_S160000_S8x20000x1)
    (ix3 r n k) (ix3 r n (0 : Fin 1)) (fun a => match a with
      | ⟨0, _⟩ => by show r.val = if (8 : Nat) = 1 then 0 else r.val; rw [if_neg (by decide)]
      | ⟨1, _⟩ => by show n.val = if (20000 : Nat) = 1 then 0 else n.val; rw [if_neg (by decide)]
      | ⟨2, _⟩ => by show (0 : Fin 1).val = if (1 : Nat) = 1 then 0 else k.val; rw [if_pos rfl]; rfl)]
  rw [shapeCast_apply z shapeCasts_S160000_S8x20000x1 (ix3 r n (0 : Fin 1)) (ix1 (⟨r.val * 20000 + n.val, h⟩ : Fin 160000))
    (by rewrite [Shape.rowMajor_val_one, Shape.rowMajor_val_three]
        show r.val * 20000 + n.val = (r.val * 20000 + n.val) * 1 + (0 : Fin 1).val; simp)]

/-- The staged bucket average of relation `r`, node `n`, channel `k`. -/
theorem aggA_apply (c : Dev nD) (r : Fin 8) (n : Fin 20000) (k : Fin 512) :
    aggA m c (ix3 r n k)
      = Ideal.div (fzero + ∑ e ∈ bucket (eiArg m c) (etArg m c) (r.val * 20000 + n.val), xArg m c (ix2 (rowOf (eiArg m c) e) k))
          (cntOf (eiArg m c) (etArg m c) (r.val * 20000 + n.val)) := by
  have h : r.val * 20000 + n.val < 160000 := by have := r.isLt; have := n.isLt; omega
  show (V m c main_v27 : S8x20000x512.Idx → EReal) (ix3 r n k) = _
  rw [aggA_eq m c, aggT_apply _ _ _ r n k h, sums_apply, cnts_apply]

end Cert.KernelIdeal.HostSide

end
-- ==== Proof.RefValue.lean ====
/-
  The reference's result, entry by entry, as a function of its arguments. Entry (n, o) is the self term
  ∑ k, x n k * Ws o k, plus the sum over the eight relations r (from zero) of bucket r * 20000 + n's average message,
  plus the bias. A bucket's average message is the sum, accumulated from zero over the bucket's edges e, of the
  transformed source row ∑ k, Wr (relation of e) o k * x (row of e) k, over the bucket's divisor.
-/
import proofs.«419077_j11003706212538_1_alg».proof.Proof.Gen.ReferenceIdeal.Read
import proofs.«419077_j11003706212538_1_alg».proof.Proof.Spec
import proofs.«419077_j11003706212538_1_alg».proof.Proof.LibIndexed
import Idealize.ShloMosaic.Lib.Pipeline.Value
import Idealize.ShloMosaic.Lib.ValueLayout

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.Rgcn

open Cert.ReferenceIdeal.Read

/-! ## The integer columns

Everything the reference computes from the two integer arguments, read at an edge: the flat bucket word that both
scatters are indexed by, and the two start-index columns of the gather. -/

/-- The bucket column (the first scatter's index operand) at edge `e` is the edge's flat bucket word. -/
theorem bucket_col (x4 : IVec SEi 32) (x5 : IVec SEt 32) (e : Fin 320000) :
    val_main_v25 (F := Ideal) x4 x5 (ix2 e (0 : Fin 1)) = segW x4 x5 e := by
  have e1 : idx_main_v25 (ix2 e (0 : Fin 1)) = ix1 e := funext fun a => Fin.ext (by match a with | ⟨0, _⟩ => rfl)
  have e2 : idx_main_v2 (idx_main_v3 (ix1 e)) = ix2 (1 : Fin 2) e := funext fun a => Fin.ext (by
    match a with
    | ⟨0, _⟩ => rfl
    | ⟨1, _⟩ => exact Nat.mod_eq_of_lt e.isLt)
  rw [val_main_v25_apply, e1, val_main_v23_apply, val_main_v22_apply, val_main_v21_apply, val_main_c_3_apply,
    val_main_v3_apply, val_main_v2_apply, e2]
  rfl

/-- The second scatter's index operand is the same column. -/
theorem bucket_col' (x4 : IVec SEi 32) (x5 : IVec SEt 32) (e : Fin 320000) :
    val_main_v30 (F := Ideal) x4 x5 (ix2 e (0 : Fin 1)) = segW x4 x5 e := by
  have e1 : idx_main_v30 (ix2 e (0 : Fin 1)) = ix1 e := funext fun a => Fin.ext (by match a with | ⟨0, _⟩ => rfl)
  have e2 : idx_main_v2 (idx_main_v3 (ix1 e)) = ix2 (1 : Fin 2) e := funext fun a => Fin.ext (by
    match a with
    | ⟨0, _⟩ => rfl
    | ⟨1, _⟩ => exact Nat.mod_eq_of_lt e.isLt)
  rw [val_main_v30_apply, e1, val_main_v23_apply, val_main_v22_apply, val_main_v21_apply, val_main_c_3_apply,
    val_main_v3_apply, val_main_v2_apply, e2]
  rfl

/-- The relation column of the gather's start indices at edge `e`: the shifted relation word. -/
theorem rel_col (x5 : IVec SEt 32) (e : Fin 320000) :
    val_main_v17 (F := Ideal) x5 (ix2 e (0 : Fin 1)) = relN x5 e := by
  have e1 : idx_main_v17 (ix2 e (0 : Fin 1)) = ix1 e := funext fun a => Fin.ext (by match a with | ⟨0, _⟩ => rfl)
  rw [val_main_v17_apply, e1, val_main_v11_apply, val_main_v8_apply, val_main_v7_apply, val_main_c_apply,
    val_main_v10_apply, val_main_v9_apply, val_main_c_0_apply]
  rfl

/-- The source column of the gather's start indices at edge `e`: the shifted source word. -/
theorem src_col (x4 : IVec SEi 32) (e : Fin 320000) :
    val_main_v18 (F := Ideal) x4 (ix2 e (0 : Fin 1)) = srcN x4 e := by
  have e1 : idx_main_v18 (ix2 e (0 : Fin 1)) = ix1 e := funext fun a => Fin.ext (by match a with | ⟨0, _⟩ => rfl)
  have e2 : idx_main_v0 (idx_main_v1 (ix1 e)) = ix2 (0 : Fin 2) e := funext fun a => Fin.ext (by
    match a with
    | ⟨0, _⟩ => rfl
    | ⟨1, _⟩ => exact Nat.mod_eq_of_lt e.isLt)
  have h1 : val_main_v1 (F := Ideal) x4 (ix1 e) = srcW x4 e := by
    rw [val_main_v1_apply, val_main_v0_apply, e2]; rfl
  rw [val_main_v18_apply, e1, val_main_v16_apply, val_main_v13_apply, val_main_v12_apply, val_main_c_1_apply,
    val_main_v15_apply, val_main_v14_apply, val_main_c_2_apply, h1]
  rfl

/-! ## The four stages read by hand -/

/-- The gather's start indices (the two columns joined) at `(e, 0)`: the shifted relation word. -/
theorem start_col0 (x4 : IVec SEi 32) (x5 : IVec SEt 32) (e : Fin 320000) :
    val_main_v19 (F := Ideal) x4 x5 (ix2 e (0 : Fin 2)) = relN x5 e := by
  unfold val_main_v19
  generalize hy : val_main_v18 (F := Ideal) x4 = y
  rw [← rel_col x5 e]
  generalize val_main_v17 (F := Ideal) x5 = z
  exact concatenate_pair_apply_left (1 : Fin 2) z y concatenates_S320000x1_S320000x1_S320000x2_d1 (ix2 e (0 : Fin 2)) rfl
    (ix2 e (0 : Fin 1)) (fun b => by match b with | ⟨0, _⟩ => rfl | ⟨1, _⟩ => rfl)

/-- The gather's start indices at `(e, 1)`: the shifted source word. -/
theorem start_col1 (x4 : IVec SEi 32) (x5 : IVec SEt 32) (e : Fin 320000) :
    val_main_v19 (F := Ideal) x4 x5 (ix2 e (1 : Fin 2)) = srcN x4 e := by
  unfold val_main_v19
  generalize hz : val_main_v17 (F := Ideal) x5 = z
  rw [← src_col x4 e]
  generalize val_main_v18 (F := Ideal) x4 = y
  exact concatenate_pair_apply_right (1 : Fin 2) z y concatenates_S320000x1_S320000x1_S320000x2_d1 (ix2 e (1 : Fin 2)) rfl rfl
    (ix2 e (0 : Fin 1)) (fun b hb => by match b with | ⟨0, _⟩ => rfl | ⟨1, _⟩ => exact absurd rfl hb) rfl

/-- The gathered message of edge `e` at channel `k`: the relation-transformed table at the edge's clamped relation and
    clamped source row. -/
theorem gathered_apply (x0 : FVec Ideal SX .f32) (x2 : FVec Ideal SWr .f32) (x4 : IVec SEi 32) (x5 : IVec SEt 32)
    (e : Fin 320000) (k : Fin 512) :
    val_main_v20 (F := Ideal) x0 x2 x4 x5 (ix2 e k)
      = val_main_v6 (F := Ideal) x0 x2 (ix3 (relOf x5 e) (rowOf x4 e) k) := by
  unfold val_main_v20
  have h0 := start_col0 x4 x5 e
  have h1 := start_col1 x4 x5 e
  generalize val_main_v19 (F := Ideal) x4 x5 = idx at h0 h1
  generalize val_main_v6 (F := Ideal) x0 x2 = y
  refine (Cert.Rgcn.Indexed.gather_rows2_apply (R := 8) (N := 20000) (K := 512) (E := 320000) (by decide) (by decide)
    gather_S8x20000x512_S320000x2_S320000x512_1_01_n_n_01_1_11512_wf y idx e k).trans ?_
  refine congrArg y ?_
  have a0 : (⟨min (idx (ix2 e (0 : Fin 2))).toInt.toNat (8 - 1), by omega⟩ : Fin 8) = relOf x5 e :=
    Fin.ext (by show min (idx (ix2 e (0 : Fin 2))).toInt.toNat (8 - 1) = min (relN x5 e).toInt.toNat 7; rw [h0])
  have a1 : (⟨min (idx (ix2 e (1 : Fin 2))).toInt.toNat (20000 - 1), by omega⟩ : Fin 20000) = rowOf x4 e :=
    Fin.ext (by show min (idx (ix2 e (1 : Fin 2))).toInt.toNat (20000 - 1) = min (srcN x4 e).toInt.toNat 19999; rw [h1])
  rw [a0, a1]

/-- The message table at `(r, m, o)`: relation `r`'s weight applied to node `m`'s features, channel `o`. -/
theorem table_apply (x0 : FVec Ideal SX .f32) (x2 : FVec Ideal SWr .f32) (r : Fin 8) (m : Fin 20000) (o : Fin 512) :
    val_main_v6 (F := Ideal) x0 x2 (ix3 r m o) = ∑ k : Fin 512, x2 (ix3 r o k) * x0 (ix2 m k) := by
  rw [val_main_v6_apply, val_main_v5_apply]
  refine Finset.sum_congr rfl fun k _ => ?_
  have el : lidx_main_v5 (idx_main_v6 (ix3 r m o)) k = ix3 r o k :=
    funext fun a => Fin.ext (by match a with | ⟨0, _⟩ => rfl | ⟨1, _⟩ => rfl | ⟨2, _⟩ => rfl)
  have er : ridx_main_v5 (idx_main_v6 (ix3 r m o)) k = ix2 m k :=
    funext fun a => Fin.ext (by match a with | ⟨0, _⟩ => rfl | ⟨1, _⟩ => rfl)
  rw [el, er]

/-- The accumulated messages of flat bucket `s` at channel `k`: from zero, the gathered messages of the bucket's edges. -/
theorem summed_apply (x0 : FVec Ideal SX .f32) (x2 : FVec Ideal SWr .f32) (x4 : IVec SEi 32) (x5 : IVec SEt 32)
    (s : ℕ) (hs : s < 160000) (k : Fin 512) :
    val_main_v26 (F := Ideal) x0 x2 x4 x5 (ix2 (⟨s, hs⟩ : Fin 160000) k)
      = fzero + ∑ e ∈ bucket x4 x5 s, val_main_v20 (F := Ideal) x0 x2 x4 x5 (ix2 e k) := by
  unfold val_main_v26
  have hc := bucket_col x4 x5
  generalize val_main_v25 (F := Ideal) x4 x5 = idx at hc
  generalize val_main_v20 (F := Ideal) x0 x2 x4 x5 = u
  simp only [Host.scatterAdd, Ideal.hostScatterAdd_def]
  refine (Cert.Rgcn.Indexed.scatterAdd_rows_apply (S := 160000) (K := 512) (E := 320000)
    scatter_S160000x512_S320000x1_S320000x512_1_0_0_1_wf (val_main_v24 (F := Ideal)) idx u ⟨s, hs⟩ k).trans ?_
  rw [val_main_v24_apply, val_main_cst_apply, Ideal.ofBits_def]
  unfold bucket
  simp only [hc]

/-- The edge count of flat bucket `s`, accumulated from zero in ones. -/
theorem counted_apply (x4 : IVec SEi 32) (x5 : IVec SEt 32) (s : ℕ) (hs : s < 160000) :
    val_main_v31 (F := Ideal) x4 x5 (ix1 (⟨s, hs⟩ : Fin 160000)) = fzero + ∑ _e ∈ bucket x4 x5 s, fone := by
  unfold val_main_v31
  have hc := bucket_col' x4 x5
  generalize val_main_v30 (F := Ideal) x4 x5 = idx at hc
  simp only [Host.scatterAdd, Ideal.hostScatterAdd_def]
  refine (Cert.Rgcn.Indexed.scatterAdd_scalars_apply (S := 160000) (E := 320000)
    scatter_S160000_S320000x1_S320000_n_0_0_1_wf (val_main_v29 (F := Ideal)) idx (val_main_v28 (F := Ideal)) ⟨s, hs⟩).trans ?_
  rw [val_main_v29_apply, val_main_cst_5_apply, Ideal.ofBits_def]
  unfold bucket
  simp only [hc, val_main_v28_apply, val_main_cst_4_apply, Ideal.ofBits_def]

/-- THE REFERENCE'S RESULT at (n, o). -/
theorem ref_apply (x0 : FVec Ideal SX .f32) (x1 : FVec Ideal SWs .f32) (x2 : FVec Ideal SWr .f32) (x3 : FVec Ideal SB .f32)
    (x4 : IVec SEi 32) (x5 : IVec SEt 32) (n : Fin 20000) (o : Fin 512) :
    Cert.ReferenceIdeal.Read.val_main_v41 (F := Ideal) x0 x1 x2 x3 x4 x5 (ix2 n o)
      = ((∑ k : Fin 512, x0 (ix2 n k) * x1 (ix2 o k))
          + (fzero + ∑ r : Fin 8,
              Ideal.div (fzero + ∑ e ∈ bucket x4 x5 (r.val * 20000 + n.val),
                  ∑ k : Fin 512, x2 (ix3 (relOf x5 e) o k) * x0 (ix2 (rowOf x4 e) k))
                (cntOf x4 x5 (r.val * 20000 + n.val))))
        + x3 (ix1 o) := by
  -- the bias term
  have hb : val_main_v40 (F := Ideal) x3 (ix2 n o) = x3 (ix1 o) := by
    have e1 : idx_main_v39 (idx_main_v40 (ix2 n o)) = ix1 o :=
      funext fun a => Fin.ext (by match a with | ⟨0, _⟩ => rfl)
    rw [val_main_v40_apply, val_main_v39_apply, e1]
  -- the self term
  have hs : val_main_v4 (F := Ideal) x0 x1 (ix2 n o) = ∑ k : Fin 512, x0 (ix2 n k) * x1 (ix2 o k) := by
    rw [val_main_v4_apply]
    refine Finset.sum_congr rfl fun k _ => ?_
    have el : lidx_main_v4 (ix2 n o) k = ix2 n k :=
      funext fun a => Fin.ext (by match a with | ⟨0, _⟩ => rfl | ⟨1, _⟩ => rfl)
    have er : ridx_main_v4 (ix2 n o) k = ix2 o k :=
      funext fun a => Fin.ext (by match a with | ⟨0, _⟩ => rfl | ⟨1, _⟩ => rfl)
    rw [el, er]
  -- relation r's average message
  have hr : ∀ r : Fin 8, val_main_v36 (F := Ideal) x0 x2 x4 x5 (ix3 r n o)
      = Ideal.div (fzero + ∑ e ∈ bucket x4 x5 (r.val * 20000 + n.val),
            ∑ k : Fin 512, x2 (ix3 (relOf x5 e) o k) * x0 (ix2 (rowOf x4 e) k))
          (cntOf x4 x5 (r.val * 20000 + n.val)) := fun r => by
    have hlt : r.val * 20000 + n.val < 160000 := by have := r.isLt; have := n.isLt; omega
    have e27 : idx_main_v27 (ix3 r n o) = ix2 (⟨r.val * 20000 + n.val, hlt⟩ : Fin 160000) o :=
      funext fun a => Fin.ext (by
        have := o.isLt
        match a with
        | ⟨0, _⟩ => show ((r.val * 20000 + n.val) * 512 + o.val) / 512 = r.val * 20000 + n.val; omega
        | ⟨1, _⟩ => show ((r.val * 20000 + n.val) * 512 + o.val) % 512 = o.val; omega)
    have e32 : idx_main_v32 (idx_main_v35 (ix3 r n o)) = ix1 (⟨r.val * 20000 + n.val, hlt⟩ : Fin 160000) :=
      funext fun a => Fin.ext (by
        match a with
        | ⟨0, _⟩ => show (r.val * 20000 + n.val) * 1 + 0 = r.val * 20000 + n.val; omega)
    rw [val_main_v36_apply, val_main_v27_apply, e27, summed_apply, val_main_v35_apply, val_main_v34_apply,
      val_main_v32_apply, e32, counted_apply, val_main_v33_apply, val_main_cst_6_apply, Ideal.hostDivf_def,
      Ideal.maximumf_def, Ideal.ofBits_def]
    simp only [gathered_apply, table_apply]
    rfl
  have e37 : ∀ r : Fin 8, idx_main_v37 (ix2 n o) r = ix3 r n o := fun r =>
    funext fun a => Fin.ext (by match a with | ⟨0, _⟩ => rfl | ⟨1, _⟩ => rfl | ⟨2, _⟩ => rfl)
  rw [val_main_v41_apply, val_main_v38_apply, hb, hs, val_main_v37_apply, val_main_cst_7_apply, Ideal.addf_def,
    Ideal.addf_def, Ideal.ofBits_def]
  simp only [e37, hr]

end Cert.ReferenceIdeal.RefValue

end
-- ==== Proof.PreFacts.lean ====
/-
  What the precondition says, element by element: every entry of the four float arguments is a real number, every
  destination word reads a node number (0 ≤ · < 20000, signed) and every relation word a relation number (0 ≤ · < 8).
-/
import proofs.«419077_j11003706212538_1_alg».proof.Defs
import proofs.«419077_j11003706212538_1_alg».proof.Proof.KernelArrays
import proofs.«419077_j11003706212538_1_alg».proof.Proof.Gen.Pre_finite_inputs
import proofs.«419077_j11003706212538_1_alg».proof.Proof.Spec
import Idealize.ShloMosaic.Lib.ReduceAll
import Idealize.ShloMosaic.Lib.Pipeline.Value

noncomputable section

namespace Cert.Rgcn.PreFacts

open Idealize.ShloMosaic Idealize.ShloMosaic.ValueIdx Idealize.SL.Sem Cert.KernelIdeal Cert.KernelIdeal.Arr

variable (m : (ℓ : Loc nD τ sig) → Buf (Elt Ideal) ℓ)

/-- The scalar shape has one index. -/
local instance scalarIdx_subsingleton : Subsingleton Cert.Pre_finite_inputs.S_.Idx :=
  ⟨fun a b => funext fun d => d.elim0⟩

/-- An extended real whose absolute value `max x (-x)` tests below `+∞` is a real number: at `⊥` and at `⊤` that
    maximum is `⊤`, which is not below itself. -/
private theorem real_of_abs_lt_inf (x : EReal)
    (hx : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at hx
  rw [htop] at hx
  induction x using EReal.rec with
  | bot => simp [Ideal.cmp] at hx
  | coe r => exact ⟨r, rfl⟩
  | top => simp [Ideal.cmp] at hx

/-- The destination row as the predicate reads it: row 1 of the edge array, sliced out and flattened, read at edge `e`. -/
private theorem dst_read (x4 : IVec Cert.Pre_finite_inputs.S2x320000 32)
    (h1 : Cert.Pre_finite_inputs.S2x320000.Slices ![1, 0] Cert.Pre_finite_inputs.S1x320000)
    (h2 : Cert.Pre_finite_inputs.S1x320000.ShapeCasts Cert.Pre_finite_inputs.S320000) (e : Fin 320000) :
    shapeCast Cert.Pre_finite_inputs.S320000
      (extractStridedSlice Cert.Pre_finite_inputs.S1x320000 ![1, 0] x4 h1) h2 (ix1 e) = x4 (ix2 (1 : Fin 2) e) := by
  -- flat position `e` of the one-row slice is its entry `(0, e)`
  rw [shapeCast_apply _ h2 (ix1 e) (ix2 (0 : Fin 1) e)
    (by rw [Shape.rowMajor_val_two, Shape.rowMajor_val_one]; show 0 * 320000 + e.val = e.val; omega)]
  -- entry `(0, e)` of the slice at offset `(1, 0)` is entry `(1, e)` of the array
  exact extractStridedSlice_apply ![1, 0] x4 h1 (ix2 (0 : Fin 1) e) (ix2 (1 : Fin 2) e) (fun a => match a with
    | ⟨0, _⟩ => by show (1 : Nat) = 1 + 0; omega
    | ⟨1, _⟩ => by show e.val = 0 + e.val; omega)

/-- The precondition on core `c`, test by test: the four finiteness tests as "every entry is a real", the four integer
    tests as signed inequalities on the words compared. -/
private theorem decoded (h : Cert.Pre_KernelIdeal m) (c : Dev nD) :
    (∀ i, ∃ r : ℝ, xArg m c i = (r : EReal)) ∧ (∀ i, ∃ r : ℝ, wsArg m c i = (r : EReal))
      ∧ (∀ i, ∃ r : ℝ, wrArg m c i = (r : EReal)) ∧ (∀ i, ∃ r : ℝ, bArg m c i = (r : EReal))
      ∧ (∀ e, 0 ≤ (Cert.Rgcn.dstW (eiArg m c) e).toInt) ∧ (∀ e, (Cert.Rgcn.dstW (eiArg m c) e).toInt < 20000)
      ∧ (∀ e, 0 ≤ (Cert.Rgcn.relW (etArg m c) e).toInt) ∧ (∀ e, (Cert.Rgcn.relW (etArg m c) e).toInt < 8) := by
  have h0 := congrFun (h c) ValueIdx.ix0
  unfold Cert.Pre_finite_inputs.fn Cert.Pre_finite_inputs.fn_part1 Cert.Pre_finite_inputs.fn_part2 at h0
  dsimp only at h0
  -- the result is the conjunction of eight `all`-tests
  simp only [andi, IntOp.andi_eq_one] at h0
  obtain ⟨⟨⟨⟨⟨⟨⟨hx, hws⟩, hwr⟩, hb⟩, hd0⟩, hd1⟩, ht0⟩, ht1⟩ := h0
  have z0 : (0#32 : BitVec 32).toInt = 0 := by decide
  have z8 : (8#32 : BitVec 32).toInt = 8 := by decide
  have zN : (20000#32 : BitVec 32).toInt = 20000 := by decide
  refine ⟨fun i => real_of_abs_lt_inf _ (Host.reduce_andi_all _ _ _ _ _ hx i),
    fun i => real_of_abs_lt_inf _ (Host.reduce_andi_all _ _ _ _ _ hws i),
    fun i => real_of_abs_lt_inf _ (Host.reduce_andi_all _ _ _ _ _ hwr i),
    fun i => real_of_abs_lt_inf _ (Host.reduce_andi_all _ _ _ _ _ hb i), fun e => ?_, fun e => ?_, fun e => ?_, fun e => ?_⟩
  · have key := Host.reduce_andi_all _ _ _ _ _ hd0 (ix1 e)
    change IntOp.cmpi .sge _ 0#32 = 1#1 at key
    rw [IntOp.cmpi_sge, dst_read, z0] at key
    exact key
  · have key := Host.reduce_andi_all _ _ _ _ _ hd1 (ix1 e)
    change IntOp.cmpi .slt _ 20000#32 = 1#1 at key
    rw [IntOp.cmpi_slt, dst_read, zN] at key
    exact key
  · have key := Host.reduce_andi_all _ _ _ _ _ ht0 (ix1 e)
    change IntOp.cmpi .sge _ 0#32 = 1#1 at key
    rw [IntOp.cmpi_sge, z0] at key
    exact key
  · have key := Host.reduce_andi_all _ _ _ _ _ ht1 (ix1 e)
    change IntOp.cmpi .slt _ 8#32 = 1#1 at key
    rw [IntOp.cmpi_slt, z8] at key
    exact key

/-- Every node feature is a real number. -/
theorem x_real (h : Cert.Pre_KernelIdeal m) (c : Dev nD) (i : Cert.Rgcn.SX.Idx) : ∃ r : ℝ, xArg m c i = (r : EReal) :=
  (decoded m h c).1 i

/-- Every self-weight entry is a real number. -/
theorem ws_real (h : Cert.Pre_KernelIdeal m) (c : Dev nD) (i : Cert.Rgcn.SWs.Idx) : ∃ r : ℝ, wsArg m c i = (r : EReal) :=
  (decoded m h c).2.1 i

/-- Every relation-weight entry is a real number. -/
theorem wr_real (h : Cert.Pre_KernelIdeal m) (c : Dev nD) (i : Cert.Rgcn.SWr.Idx) : ∃ r : ℝ, wrArg m c i = (r : EReal) :=
  (decoded m h c).2.2.1 i

/-- Every bias entry is a real number. -/
theorem b_real (h : Cert.Pre_KernelIdeal m) (c : Dev nD) (i : Cert.Rgcn.SB.Idx) : ∃ r : ℝ, bArg m c i = (r : EReal) :=
  (decoded m h c).2.2.2.1 i

/-- Every destination word reads a node number. -/
theorem dst_range (h : Cert.Pre_KernelIdeal m) (c : Dev nD) (e : Fin 320000) :
    0 ≤ (Cert.Rgcn.dstW (eiArg m c) e).toInt ∧ (Cert.Rgcn.dstW (eiArg m c) e).toInt < 20000 :=
  ⟨(decoded m h c).2.2.2.2.1 e, (decoded m h c).2.2.2.2.2.1 e⟩

/-- Every relation word reads a relation number. -/
theorem rel_range (h : Cert.Pre_KernelIdeal m) (c : Dev nD) (e : Fin 320000) :
    0 ≤ (Cert.Rgcn.relW (etArg m c) e).toInt ∧ (Cert.Rgcn.relW (etArg m c) e).toInt < 8 :=
  ⟨(decoded m h c).2.2.2.2.2.2.1 e, (decoded m h c).2.2.2.2.2.2.2 e⟩

end Cert.Rgcn.PreFacts

end
-- ==== Proof.Law.lean ====
/-
  The algebra that joins the two programs, over no program. The kernel averages the gathered feature rows of a bucket
  and then contracts the average with the relation's weight; the reference contracts each gathered row first and averages
  the results. For real features and weights these agree: the contraction is linear, and dividing by the bucket's
  (nonzero, real) divisor commutes with it.
-/
import proofs.«419077_j11003706212538_1_alg».proof.Proof.Spec
import Mathlib.Data.EReal.Basic
import Mathlib.Data.EReal.Inv
import Mathlib.Algebra.BigOperators.Ring.Finset

noncomputable section

namespace Cert.Rgcn

open Idealize.ShloMosaic

/-- The float zero is the real zero. -/
theorem fzero_eq : fzero = 0 := by
  show Ideal.ofBits .f32 0x00000000#32 = 0
  simp [Ideal.ofBits, Ideal.ieee]

/-- The float one is the real one. -/
theorem fone_eq : fone = 1 := by
  show Ideal.ofBits .f32 0x3F800000#32 = 1
  -- sign 0, exponent field 127, fraction 0: the value is 2 ^ 23 * 2 ^ (127 - 127 - 23)
  simp [Ideal.ofBits, Ideal.ieee]
  rw [← EReal.coe_mul, ← EReal.coe_one]
  congr 1
  norm_num

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the larger of two reals is the larger of the coercions. -/
private theorem law_coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The divisor of a bucket is the real number `max |B| 1`. -/
private theorem law_divisor_eq {E : Type} (B : Finset E) :
    max (fzero + ∑ _e ∈ B, fone) fone = ((max (B.card : ℝ) 1 : ℝ) : EReal) := by
  have hcount : (∑ _e ∈ B, (1 : EReal)) = ((B.card : ℝ) : EReal) := by
    have h := coe_sum B (fun _ => (1 : ℝ))
    rw [Finset.sum_const, nsmul_eq_mul, mul_one] at h
    rw [h]
    rfl
  rw [fzero_eq, fone_eq, zero_add, hcount, ← EReal.coe_one, law_coe_max]

/-- ONE BUCKET. Averaging the rows `X e` of the edges in `B` and contracting with `W` is contracting each row with `W`
    and averaging: both are `(∑ e ∈ B, ∑ k, W k * X e k) / max |B| 1`. -/
theorem bucket_law {E K : Type} [Fintype K] (B : Finset E) (X : E → K → ℝ) (W : K → ℝ) :
    ∑ k : K, Ideal.div (fzero + ∑ e ∈ B, (X e k : EReal)) (max (fzero + ∑ _e ∈ B, fone) fone) * (W k : EReal)
      = Ideal.div (fzero + ∑ e ∈ B, ∑ k : K, (W k : EReal) * (X e k : EReal)) (max (fzero + ∑ _e ∈ B, fone) fone) := by
  -- the divisor is a real number that is at least one
  have hc : (max (B.card : ℝ) 1 : ℝ) ≠ 0 := by
    have : (1 : ℝ) ≤ max (B.card : ℝ) 1 := le_max_right _ _
    intro h0
    rw [h0] at this
    exact absurd this (by norm_num)
  rw [law_divisor_eq, fzero_eq]
  simp only [zero_add, Ideal.div_coe hc]
  -- both sides are coercions of real expressions
  have hL : ∀ k : K, (∑ e ∈ B, (X e k : EReal)) * ((1 / max (B.card : ℝ) 1 : ℝ) : EReal) * (W k : EReal)
      = (((∑ e ∈ B, X e k) * (1 / max (B.card : ℝ) 1) * W k : ℝ) : EReal) := by
    intro k
    rw [EReal.coe_mul, EReal.coe_mul, coe_sum]
  have hR : (∑ e ∈ B, ∑ k : K, (W k : EReal) * (X e k : EReal))
      = ((∑ e ∈ B, ∑ k : K, W k * X e k : ℝ) : EReal) := by
    rw [coe_sum]
    refine Finset.sum_congr rfl fun e _ => ?_
    rw [coe_sum]
    refine Finset.sum_congr rfl fun k _ => ?_
    rw [EReal.coe_mul]
  rw [Finset.sum_congr rfl fun k _ => hL k, hR, ← coe_sum, ← EReal.coe_mul]
  -- the real identity: the contraction is linear and the division commutes with it
  congr 1
  rw [Finset.sum_comm, Finset.sum_mul]
  refine Finset.sum_congr rfl fun k _ => ?_
  rw [← Finset.mul_sum]
  ring

end Cert.Rgcn

end
-- ==== Proof.SpecFacts.lean ====
/-
  Integer facts about buckets, over no program. When every relation word reads a relation number and every destination
  word a node number, the flat bucket word `et * 20000 + dst` does not wrap, so an edge lies in bucket r * 20000 + n
  exactly when its relation is r and its destination n; and the relation the reference's gather reads for it is r.
-/
import proofs.«419077_j11003706212538_1_alg».proof.Proof.Spec

noncomputable section

namespace Cert.Rgcn

open Idealize.ShloMosaic Idealize.ShloMosaic.ValueIdx

/-- A 32-bit word that reads a non-negative integer signed reads the same number unsigned. -/
theorem toNat_eq_toInt_of_nonneg (w : BitVec 32) (h0 : 0 ≤ w.toInt) : (w.toNat : ℤ) = w.toInt := by
  have hlt := w.isLt
  rw [BitVec.toInt_eq_toNat_cond] at h0 ⊢
  split_ifs at h0 ⊢ with h
  · rfl
  · omega

/-- A word below 2 ^ 31 unsigned reads the same number signed. -/
theorem toInt_eq_toNat_of_lt (w : BitVec 32) (h : w.toNat < 2 ^ 31) : w.toInt = (w.toNat : ℤ) := by
  rw [BitVec.toInt_eq_toNat_cond, if_pos (by omega)]

/-- With the relation word below 8 and the destination word below 20000, the bucket word is `et * 20000 + dst` without
    wrapping. -/
theorem segW_toInt (ei : IVec SEi 32) (et : IVec SEt 32) (e : Fin 320000)
    (hw : (relW et e).toNat < 8) (hd : (dstW ei e).toNat < 20000) :
    (segW ei et e).toInt = (((relW et e).toNat * 20000 + (dstW ei e).toNat : ℕ) : ℤ) := by
  have hnat : (segW ei et e).toNat = (relW et e).toNat * 20000 + (dstW ei e).toNat := by
    unfold segW IntOp.addi IntOp.muli
    rw [BitVec.toNat_add, BitVec.toNat_mul]
    have h2 : (20000#32 : BitVec 32).toNat = 20000 := by decide
    rw [h2, Nat.mod_eq_of_lt (a := (relW et e).toNat * 20000) (by omega), Nat.mod_eq_of_lt (by omega)]
  rw [toInt_eq_toNat_of_lt _ (by rw [hnat]; omega), hnat]

/-- An edge of flat bucket `r * 20000 + n` has relation `r`, as the reference's gather reads it. -/
theorem relOf_of_mem_bucket (ei : IVec SEi 32) (et : IVec SEt 32)
    (hd : ∀ e, 0 ≤ (dstW ei e).toInt ∧ (dstW ei e).toInt < 20000)
    (hr : ∀ e, 0 ≤ (relW et e).toInt ∧ (relW et e).toInt < 8)
    (r : Fin 8) (n : Fin 20000) (e : Fin 320000) (he : e ∈ bucket ei et (r.val * 20000 + n.val)) :
    relOf et e = r := by
  have hwn := toNat_eq_toInt_of_nonneg _ (hr e).1
  have hdn := toNat_eq_toInt_of_nonneg _ (hd e).1
  have hw8 : (relW et e).toNat < 8 := by have := (hr e).2; omega
  have hd2 : (dstW ei e).toNat < 20000 := by have := (hd e).2; omega
  -- the bucket word names the pair (relation, destination) without wrapping, so the relation word is r
  have he' : (segW ei et e).toInt = ((r.val * 20000 + n.val : ℕ) : ℤ) := (Finset.mem_filter.mp he).2
  rw [segW_toInt ei et e hw8 hd2] at he'
  have hrw : (relW et e).toNat = r.val := by have := n.isLt; omega
  -- a non-negative relation word is not shifted by the gather's index normalisation
  have hslt : IntOp.cmpi .slt (relW et e) 0#32 = 0#1 := by
    unfold IntOp.cmpi
    have h0 : (0#32 : BitVec 32).toInt = 0 := by decide
    have : (relW et e).slt 0#32 = false := by
      rw [BitVec.slt, h0]; exact decide_eq_false (by have := (hr e).1; omega)
    rw [this]; rfl
  have hN : relN et e = relW et e := by
    unfold relN; rw [hslt]; exact select_zero _ _
  -- and a word below 8 is not clamped
  refine Fin.ext ?_
  show min (relN et e).toInt.toNat 7 = r.val
  rw [hN, ← hwn, Int.toNat_natCast, hrw]
  have := r.isLt
  omega

end Cert.Rgcn

end
-- ==== Proof.Bridge.lean ====
/-
  The two programs compute one function. Entry (n, o) of the kernel's result array is the self term, plus the eight
  relations' terms in order, plus the bias; the reference's is the self term, plus the eight relations' average messages
  summed from zero, plus the bias. Relation by relation the two agree: every edge of bucket r * 20000 + n has relation r,
  so the reference's messages in that bucket are all transformed by relation r's weight, and averaging then contracting
  is contracting then averaging (the features and weights being real).
-/
import proofs.«419077_j11003706212538_1_alg».proof.Proof.KernelArrays
import proofs.«419077_j11003706212538_1_alg».proof.Proof.KernelBlocks
import proofs.«419077_j11003706212538_1_alg».proof.Proof.KernelHost
import proofs.«419077_j11003706212538_1_alg».proof.Proof.RefValue
import proofs.«419077_j11003706212538_1_alg».proof.Proof.PreFacts
import proofs.«419077_j11003706212538_1_alg».proof.Proof.Law
import proofs.«419077_j11003706212538_1_alg».proof.Proof.SpecFacts

noncomputable section

namespace Cert.Rgcn.Bridge

open Cert.KernelIdeal Cert.KernelIdeal.Gen Cert.KernelIdeal.Arr Idealize.ShloMosaic Idealize.ShloMosaic.TcCoe Idealize.SL.Sem
open Idealize.ShloMosaic.ValueIdx Cert.Rgcn

variable (m : (ℓ : Loc nD τ sig) → Buf (Elt Ideal) ℓ)

/-- ONE RELATION of one entry: the reference's average message of bucket r * 20000 + n is the kernel's bucket average
    contracted with relation r's weight row. -/
theorem rel_eq (hpre : Cert.Pre_KernelIdeal m) (c : Dev nD) (r : Fin 8) (n : Fin 20000) (o : Fin 512) :
    Ideal.div (fzero + ∑ e ∈ bucket (eiArg m c) (etArg m c) (r.val * 20000 + n.val),
        ∑ k : Fin 512, wrArg m c (ix3 (relOf (etArg m c) e) o k) * xArg m c (ix2 (rowOf (eiArg m c) e) k))
      (cntOf (eiArg m c) (etArg m c) (r.val * 20000 + n.val))
    = ∑ k : Fin 512,
        Ideal.div (fzero + ∑ e ∈ bucket (eiArg m c) (etArg m c) (r.val * 20000 + n.val), xArg m c (ix2 (rowOf (eiArg m c) e) k))
          (cntOf (eiArg m c) (etArg m c) (r.val * 20000 + n.val)) * wrArg m c (ix3 r o k) := by
  -- the features and the weights are real
  choose X hX using PreFacts.x_real m hpre c
  choose W hW using PreFacts.wr_real m hpre c
  have hrel : ∀ e ∈ bucket (eiArg m c) (etArg m c) (r.val * 20000 + n.val), relOf (etArg m c) e = r :=
    fun e he => relOf_of_mem_bucket _ _ (PreFacts.dst_range m hpre c) (PreFacts.rel_range m hpre c) r n e he
  have h1 : (∑ e ∈ bucket (eiArg m c) (etArg m c) (r.val * 20000 + n.val),
        ∑ k : Fin 512, wrArg m c (ix3 (relOf (etArg m c) e) o k) * xArg m c (ix2 (rowOf (eiArg m c) e) k))
      = ∑ e ∈ bucket (eiArg m c) (etArg m c) (r.val * 20000 + n.val),
        ∑ k : Fin 512, ((W (ix3 r o k) : ℝ) : EReal) * ((X (ix2 (rowOf (eiArg m c) e) k) : ℝ) : EReal) :=
    Finset.sum_congr rfl fun e he => Finset.sum_congr rfl fun k _ => by rw [hrel e he, hW, hX]
  have hs : ∀ k : Fin 512,
      (∑ e ∈ bucket (eiArg m c) (etArg m c) (r.val * 20000 + n.val), xArg m c (ix2 (rowOf (eiArg m c) e) k))
      = ∑ e ∈ bucket (eiArg m c) (etArg m c) (r.val * 20000 + n.val), ((X (ix2 (rowOf (eiArg m c) e) k) : ℝ) : EReal) :=
    fun k => Finset.sum_congr rfl fun e _ => hX _
  have h2 : ∀ k : Fin 512,
      Ideal.div (fzero + ∑ e ∈ bucket (eiArg m c) (etArg m c) (r.val * 20000 + n.val), xArg m c (ix2 (rowOf (eiArg m c) e) k))
          (cntOf (eiArg m c) (etArg m c) (r.val * 20000 + n.val)) * wrArg m c (ix3 r o k)
      = Ideal.div (fzero + ∑ e ∈ bucket (eiArg m c) (etArg m c) (r.val * 20000 + n.val), ((X (ix2 (rowOf (eiArg m c) e) k) : ℝ) : EReal))
          (cntOf (eiArg m c) (etArg m c) (r.val * 20000 + n.val)) * ((W (ix3 r o k) : ℝ) : EReal) := fun k => by
    rw [hW, hs k]
  rw [h1, Finset.sum_congr rfl fun k _ => h2 k]
  exact (bucket_law (bucket (eiArg m c) (etArg m c) (r.val * 20000 + n.val))
    (fun e k => X (ix2 (rowOf (eiArg m c) e) k)) (fun k => W (ix3 r o k))).symm

/-- THE RESULT: the reference's term of the launched arguments is the kernel's result array. -/
theorem result_eq (hpre : Cert.Pre_KernelIdeal m) (c : Dev nD) :
    Cert.ReferenceIdeal.Read.val_main_v41 (F := Ideal) (xArg m c) (wsArg m c) (wrArg m c) (bArg m c) (eiArg m c) (etArg m c)
      = outA m c := by
  funext i
  obtain ⟨n, o, rfl⟩ : ∃ (n : Fin 20000) (o : Fin 512), i = ix2 n o := ⟨i 0, i 1, eq_ix2 i⟩
  rw [Cert.ReferenceIdeal.RefValue.ref_apply, Cert.KernelIdeal.Blocks.kernel_final, HostSide.bA_apply]
  refine congrArg (· + bArg m c (ix1 o)) ?_
  have hself : (∑ k : Fin 512, xA m c (ix2 n k) * wsA m c (ix2 o k)) = ∑ k : Fin 512, xArg m c (ix2 n k) * wsArg m c (ix2 o k) :=
    Finset.sum_congr rfl fun k _ => by rw [HostSide.xA_apply, HostSide.wsA_apply]
  rw [hself]
  refine congrArg ((∑ k : Fin 512, xArg m c (ix2 n k) * wsArg m c (ix2 o k)) + ·) ?_
  -- the reference's sum over the relations starts from the float zero, which adds nothing
  have hz : ∀ t : EReal, fzero + t = t := fun t => by rw [fzero_eq, zero_add]
  refine (hz _).trans ?_
  rw [← Fin.sum_univ_eq_sum_range (fun s => Cert.KernelIdeal.Blocks.relTerm m c n o s) 8]
  refine Finset.sum_congr rfl fun r _ => ?_
  rw [rel_eq m hpre c r n o]
  unfold Cert.KernelIdeal.Blocks.relTerm
  have hr : (⟨r.val % 8, Nat.mod_lt _ (by decide)⟩ : Fin 8) = r := Fin.ext (Nat.mod_eq_of_lt r.isLt)
  rw [hr]
  exact Finset.sum_congr rfl fun k _ => by rw [HostSide.aggA_apply, HostSide.wrA_apply]

end Cert.Rgcn.Bridge

end
-- ==== Proof.lean ====
/- The proof of `Cert.Claim` for a relational graph convolution with mean aggregation: 20000 nodes with 512 features,
   320000 typed edges, 8 relations. Entry (n, o) of the result is
     ∑ k, x n k * W_self o k  +  ∑ r, (average over the edges of relation r into n of the transformed source row)  +  bias o.
   The reference transforms every node under every relation, gathers one transformed row per edge, accumulates the rows
   into flat buckets r * 20000 + n, and divides by the bucket's edge count clamped below at one. The kernel gathers the
   plain source rows, accumulates and averages THOSE per bucket on the host, and applies relation r's weight once per
   bucket inside a pallas_call that walks node tiles and, within a tile, the relations, accumulating in a scratch.
   The two agree where each bucket holds edges of one relation only — that is where every relation word is a relation
   number and every destination word a node number, which the precondition states beside the finiteness of the floats —
   because the weight's contraction is linear and the division by the bucket's divisor commutes with it over the reals.
   The three frames are the generated ones; nothing was rewritten by the ideal pass. -/
import proofs.«419077_j11003706212538_1_alg».proof.Defs
import proofs.«419077_j11003706212538_1_alg».proof.Proof.Gen.Kernel
import proofs.«419077_j11003706212538_1_alg».proof.Proof.Gen.Kernel.Frame
import proofs.«419077_j11003706212538_1_alg».proof.Proof.Gen.KernelIdeal
import proofs.«419077_j11003706212538_1_alg».proof.Proof.Gen.KernelIdeal.Frame
import proofs.«419077_j11003706212538_1_alg».proof.Proof.Gen.ReferenceIdeal
import proofs.«419077_j11003706212538_1_alg».proof.Proof.Gen.Pre_finite_inputs
import proofs.«419077_j11003706212538_1_alg».proof.Proof.Gen.KernelIdeal.Value
import proofs.«419077_j11003706212538_1_alg».proof.Proof.Gen.ReferenceIdeal.Run
import proofs.«419077_j11003706212538_1_alg».proof.Proof.Gen.ReferenceIdeal.Read
import proofs.«419077_j11003706212538_1_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end with the result array at one function of arguments that agree: the
    kernel's run names its result array, the reference's run its term, and the two are equal entry by entry. -/
theorem algebraic : Cert.algebraic_KernelIdeal_ReferenceIdeal := by
  intro m ρ m' ρ' hpre hagree
  refine ⟨fun c => (Cert.KernelIdeal.Gen.dats m 0 c).arrAt 5 Cert.KernelIdeal.cfg0.N,
    Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  -- the reference's term is its last stage, a function of its six arguments, which are the kernel's
  refine (Cert.ReferenceIdeal.Read.val_main_v41_eq (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))).trans ?_
  rw [(hagree c).1, (hagree c).2.1, (hagree c).2.2.1, (hagree c).2.2.2.1, (hagree c).2.2.2.2.1, (hagree c).2.2.2.2.2]
  exact Cert.Rgcn.Bridge.result_eq m hpre c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
